-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x64x64 : Shape := ⟨4, ![16, 256, 64, 64]⟩
abbrev S16x6400 : Shape := ⟨2, ![16, 6400]⟩
abbrev S_ : Shape := ⟨0, ![]⟩

class Facts : Prop where
  bcast_S_S16x256x64x64 : S_.BroadcastsInDim S16x256x64x64 (![] : Fin 0 → Fin S16x256x64x64.rank)
  reducesTo_S16x256x64x64_S_d0_1_2_3 : S16x256x64x64.ReducesTo [0, 1, 2, 3] S_
  h_S_ : 0 < S_.numel
  bcast_S_S16x6400 : S_.BroadcastsInDim S16x6400 (![] : Fin 0 → Fin S16x6400.rank)
  reducesTo_S16x6400_S_d0_1 : S16x6400.ReducesTo [0, 1] S_

variable [Facts]

def fn {F : FTy → Type} [FloatOps F] (main_arg0 : FVec F S16x256x64x64 .f32) (main_arg1 : FVec F S16x6400 .f32) : IVec S_ 1 :=
  let main_v0 : FVec F S16x256x64x64 .f32 := Host.absf main_arg0
  let main_cst : FVec F S_ .f32 := constant S_ .f32 0x7F800000#32
  let main_v1 : FVec F S16x256x64x64 .f32 := broadcastInDim S16x256x64x64 ![] bcast_S_S16x256x64x64 main_cst
  let main_v2 : IVec S16x256x64x64 1 := cmpf .olt main_v0 main_v1
  let main_c : IVec S_ 1 := constantI S_ 1 1#1
  let main_v3 : IVec S_ 1 := (fun x v => Host.reduce IntOp.andi x v reducesTo_S16x256x64x64_S_d0_1_2_3 h_S_) main_v2 main_c
  let main_v4 : FVec F S16x6400 .f32 := Host.absf main_arg1
  let main_cst_0 : FVec F S_ .f32 := constant S_ .f32 0x7F800000#32
  let main_v5 : FVec F S16x6400 .f32 := broadcastInDim S16x6400 ![] bcast_S_S16x6400 main_cst_0
  let main_v6 : IVec S16x6400 1 := cmpf .olt main_v4 main_v5
  let main_c_1 : IVec S_ 1 := constantI S_ 1 1#1
  let main_v7 : IVec S_ 1 := (fun x v => Host.reduce IntOp.andi x v reducesTo_S16x6400_S_d0_1 h_S_) main_v6 main_c_1
  let main_v8 : IVec S_ 1 := andi main_v3 main_v7
  main_v8
-- ==== Kernel.lean ====
abbrev S16x256x64x64 : Shape := ⟨4, ![16, 256, 64, 64]⟩
abbrev S16x6400 : Shape := ⟨2, ![16, 6400]⟩
abbrev S16x256x4096 : Shape := ⟨3, ![16, 256, 4096]⟩
abbrev S16x3072 : Shape := ⟨2, ![16, 3072]⟩
abbrev S16x256x12 : Shape := ⟨3, ![16, 256, 12]⟩
abbrev S16x256 : Shape := ⟨2, ![16, 256]⟩
abbrev S16x256x1 : Shape := ⟨3, ![16, 256, 1]⟩
abbrev S1x256x4096 : Shape := ⟨3, ![1, 256, 4096]⟩
abbrev S1x256x12 : Shape := ⟨3, ![1, 256, 12]⟩
abbrev S1x256x1 : Shape := ⟨3, ![1, 256, 1]⟩
abbrev S256x4096 : Shape := ⟨2, ![256, 4096]⟩
abbrev S32x8x4096 : Shape := ⟨3, ![32, 8, 4096]⟩
abbrev S32 : Shape := ⟨1, ![32]⟩
abbrev S32x1x1 : Shape := ⟨3, ![32, 1, 1]⟩
abbrev S256x12 : Shape := ⟨2, ![256, 12]⟩
abbrev S256x1 : Shape := ⟨2, ![256, 1]⟩
abbrev S12x4096 : Shape := ⟨2, ![12, 4096]⟩

abbrev nBuf : Space → Nat
  | .hbm => 11
  | .vmem => 10
  | .smem => 0
  | _ => 0

abbrev bufTy : (tb : Table) → Fin (tcTables nBuf tb) → BufTy
  | .hbm, ⟨0, _⟩ => ⟨S16x256x64x64, .f32⟩
  | .hbm, ⟨1, _⟩ => ⟨S16x6400, .f32⟩
  | .hbm, ⟨2, _⟩ => ⟨S16x256x4096, .f32⟩
  | .hbm, ⟨3, _⟩ => ⟨S16x3072, .f32⟩
  | .hbm, ⟨4, _⟩ => ⟨S16x256x12, .f32⟩
  | .hbm, ⟨5, _⟩ => ⟨S16x3072, .f32⟩
  | .hbm, ⟨6, _⟩ => ⟨S16x256x12, .f32⟩
  | .hbm, ⟨7, _⟩ => ⟨S16x256, .f32⟩
  | .hbm, ⟨8, _⟩ => ⟨S16x256x1, .f32⟩
  | .hbm, ⟨9, _⟩ => ⟨S16x256x4096, .f32⟩
  | .hbm, ⟨10, _⟩ => ⟨S16x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x12, .f32⟩
  | .local _ .vmem, ⟨3, _⟩ => ⟨S1x256x12, .f32⟩
  | .local _ .vmem, ⟨4, _⟩ => ⟨S1x256x12, .f32⟩
  | .local _ .vmem, ⟨5, _⟩ => ⟨S1x256x12, .f32⟩
  | .local _ .vmem, ⟨6, _⟩ => ⟨S1x256x1, .f32⟩
  | .local _ .vmem, ⟨7, _⟩ => ⟨S1x256x1, .f32⟩
  | .local _ .vmem, ⟨8, _⟩ => ⟨S1x256x4096, .f32⟩
  | .local _ .vmem, ⟨9, _⟩ => ⟨S1x256x4096, .f32⟩
  | _, _ => ⟨S16x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x256x64x64_S16x256x4096 : S16x256x64x64.ShapeCasts S16x256x4096
  slices_S16x6400_S16x3072_0_0 : S16x6400.Slices ![0, 0] S16x3072
  shapeCasts_S16x3072_S16x256x12 : S16x3072.ShapeCasts S16x256x12
  slices_S16x6400_S16x3072_0_3072 : S16x6400.Slices ![0, 3072] S16x3072
  slices_S16x6400_S16x256_0_6144 : S16x6400.Slices ![0, 6144] S16x256
  shapeCasts_S16x256_S16x256x1 : S16x256.ShapeCasts S16x256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S32x8x4096 : S256x4096.ShapeCasts S32x8x4096
  reduces_S32x8x4096_S32 : S32x8x4096.Reduces [1, 2] S32
  shapeCasts_S32_S32x1x1 : S32.ShapeCasts S32x1x1
  broadcasts_S32x1x1_S32x8x4096 : S32x1x1.Broadcasts S32x8x4096
  shapeCasts_S32x8x4096_S256x4096 : S32x8x4096.ShapeCasts S256x4096
  inb_S1x256x12_S1x256x12_0_0_0 : ∀ a, (![0, 0, 0] : Fin 3 → Nat) a + S1x256x12.size a ≤ S1x256x12.size a
  h_S1x256x12 : 0 < S1x256x12.numel
  shapeCasts_S1x256x12_S256x12 : S1x256x12.ShapeCasts S256x12
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  bitsLt_bf16_f32 : FTy.bits .bf16 < FTy.bits .f32
  broadcasts_S256x1_S256x4096 : S256x1.Broadcasts S256x4096
  shapeCasts_S256x4096_S1x256x4096 : S256x4096.ShapeCasts S1x256x4096
  shapeCasts_S16x256x4096_S16x256x64x64 : S16x256x4096.ShapeCasts S16x256x64x64
  dot_S256x12_S256x4096_S12x4096_0_0_1_1_n_n_wf : DotDims.WF S256x12 S256x4096 S12x4096 [0] [0] [1] [1] [] []
  dot_S256x12_S12x4096_S256x4096_1_0_0_1_n_n_wf : DotDims.WF S256x12 S12x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S16x256x4096.size a
  hwx0_0 : ∀ i : grid0.Coords, EltTy.bits .f32 = 32 ∨ (Rect.block (s := S16x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x12.size a ≤ S16x256x12.size a
  hwx0_1 : ∀ i : grid0.Coords, EltTy.bits .f32 = 32 ∨ (Rect.block (s := S16x256x12) S1x256x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x12.size a ≤ S16x256x12.size a
  hwx0_2 : ∀ i : grid0.Coords, EltTy.bits .f32 = 32 ∨ (Rect.block (s := S16x256x12) S1x256x12.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S16x256x1.size a
  hwx0_3 : ∀ i : grid0.Coords, EltTy.bits .f32 = 32 ∨ (Rect.block (s := S16x256x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S16x256x4096.size a
  hwx0_4 : ∀ i : grid0.Coords, EltTy.bits .f32 = 32 ∨ (Rect.block (s := S16x256x4096) S1x256x4096.size (cc0_transform_4 i) (hinb0_4 i)).WholeWords (EltTy.packing .f32)

variable [Facts₀]

def dot_S256x12_S256x4096_S12x4096_0_0_1_1_n_n : DotDims S256x12 S256x4096 S12x4096 where
  lhsContracting := [0]
  rhsContracting := [0]
  lhsNonContracting := [1]
  rhsNonContracting := [1]
  lhsBatch := []
  rhsBatch := []
  wf := dot_S256x12_S256x4096_S12x4096_0_0_1_1_n_n_wf
def dot_S256x12_S12x4096_S256x4096_1_0_0_1_n_n : DotDims S256x12 S12x4096 S256x4096 where
  lhsContracting := [1]
  rhsContracting := [0]
  lhsNonContracting := [0]
  rhsNonContracting := [1]
  lhsBatch := []
  rhsBatch := []
  wf := dot_S256x12_S12x4096_S256x4096_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256x12.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x256x64x64 : Shape := ⟨4, ![16, 256, 64, 64]⟩
abbrev S16x6400 : Shape := ⟨2, ![16, 6400]⟩
abbrev S16x32x32768 : Shape := ⟨3, ![16, 32, 32768]⟩
abbrev S_ : Shape := ⟨0, ![]⟩
abbrev S16x32 : Shape := ⟨2, ![16, 32]⟩
abbrev S16x32x1 : Shape := ⟨3, ![16, 32, 1]⟩
abbrev S16x3072 : Shape := ⟨2, ![16, 3072]⟩
abbrev S16x256x12 : Shape := ⟨3, ![16, 256, 12]⟩
abbrev S16x256 : Shape := ⟨2, ![16, 256]⟩
abbrev S16x256x1x1 : Shape := ⟨4, ![16, 256, 1, 1]⟩
abbrev S16x256x4096 : Shape := ⟨3, ![16, 256, 4096]⟩
abbrev S16x12x4096 : Shape := ⟨3, ![16, 12, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16x256x64x64, .f32⟩
  | .hbm, ⟨1, _⟩ => ⟨S16x6400, .f32⟩
  | .hbm, ⟨2, _⟩ => ⟨S16x32x32768, .f32⟩
  | .hbm, ⟨3, _⟩ => ⟨S_, .f32⟩
  | .hbm, ⟨4, _⟩ => ⟨S16x32, .f32⟩
  | .hbm, ⟨5, _⟩ => ⟨S16x32x1, .f32⟩
  | .hbm, ⟨6, _⟩ => ⟨S_, .f32⟩
  | .hbm, ⟨7, _⟩ => ⟨S16x32x1, .f32⟩
  | .hbm, ⟨8, _⟩ => ⟨S16x32x1, .f32⟩
  | .hbm, ⟨9, _⟩ => ⟨S_, .i32⟩
  | .hbm, ⟨10, _⟩ => ⟨S_, .f32⟩
  | .hbm, ⟨11, _⟩ => ⟨S16x32, .f32⟩
  | .hbm, ⟨12, _⟩ => ⟨S16x32x1, .f32⟩
  | .hbm, ⟨13, _⟩ => ⟨S_, .f32⟩
  | .hbm, ⟨14, _⟩ => ⟨S16x32x1, .f32⟩
  | .hbm, ⟨15, _⟩ => ⟨S16x32x1, .f32⟩
  | .hbm, ⟨16, _⟩ => ⟨S16x32x32768, .f32⟩
  | .hbm, ⟨17, _⟩ => ⟨S16x32x32768, .f32⟩
  | .hbm, ⟨18, _⟩ => ⟨S16x32x32768, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x32, .f32⟩
  | .hbm, ⟨24, _⟩ => ⟨S16x32x1, .f32⟩
  | .hbm, ⟨25, _⟩ => ⟨S16x32x1, .f32⟩
  | .hbm, ⟨26, _⟩ => ⟨S16x32x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S16x32x1, .f32⟩
  | .hbm, ⟨32, _⟩ => ⟨S16x32x1, .f32⟩
  | .hbm, ⟨33, _⟩ => ⟨S16x32x32768, .f32⟩
  | .hbm, ⟨34, _⟩ => ⟨S16x32x32768, .f32⟩
  | .hbm, ⟨35, _⟩ => ⟨S_, .f32⟩
  | .hbm, ⟨36, _⟩ => ⟨S16x32x1, .f32⟩
  | .hbm, ⟨37, _⟩ => ⟨S16x32x1, .f32⟩
  | .hbm, ⟨38, _⟩ => ⟨S16x32x1, .f32⟩
  | .hbm, ⟨39, _⟩ => ⟨S16x32x32768, .f32⟩
  | .hbm, ⟨40, _⟩ => ⟨S16x32x32768, .f32⟩
  | .hbm, ⟨41, _⟩ => ⟨S16x256x64x64, .f32⟩
  | .hbm, ⟨42, _⟩ => ⟨S16x3072, .f32⟩
  | .hbm, ⟨43, _⟩ => ⟨S16x256x12, .f32⟩
  | .hbm, ⟨44, _⟩ => ⟨S16x3072, .f32⟩
  | .hbm, ⟨45, _⟩ => ⟨S16x256x12, .f32⟩
  | .hbm, ⟨46, _⟩ => ⟨S16x256, .f32⟩
  | .hbm, ⟨47, _⟩ => ⟨S16x256x1x1, .f32⟩
  | .hbm, ⟨48, _⟩ => ⟨S16x256x4096, .f32⟩
  | .hbm, ⟨49, _⟩ => ⟨S16x12x4096, .f32⟩
  | .hbm, ⟨50, _⟩ => ⟨S16x256x4096, .f32⟩
  | .hbm, ⟨51, _⟩ => ⟨S16x256x4096, .f32⟩
  | .hbm, ⟨52, _⟩ => ⟨S16x256x64x64, .f32⟩
  | .hbm, ⟨53, _⟩ => ⟨S16x256x64x64, .f32⟩
  | .hbm, ⟨54, _⟩ => ⟨S16x256x64x64, .f32⟩
  | _, _ => ⟨S16x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩

abbrev nD : Nat := 1
abbrev τ : Topo := Topo.v7x

variable {F : FTy → Type} [FloatOps F]

class Facts₀ : Prop where
  shapeCasts_S16x256x64x64_S16x32x32768 : S16x256x64x64.ShapeCasts S16x32x32768
  reducesTo_S16x32x32768_S16x32_d2 : S16x32x32768.ReducesTo [2] S16x32
  h_S_ : 0 < S_.numel
  bcast_S16x32_S16x32x1_0_1 : S16x32.BroadcastsInDim S16x32x1 (![0, 1] : Fin 2 → Fin S16x32x1.rank)
  bcast_S_S16x32x1 : S_.BroadcastsInDim S16x32x1 (![] : Fin 0 → Fin S16x32x1.rank)
  bcast_S16x32x1_S16x32x32768_0_1_2 : S16x32x1.BroadcastsInDim S16x32x32768 (![0, 1, 2] : Fin 3 → Fin S16x32x32768.rank)
  shapeCasts_S16x32x32768_S16x256x64x64 : S16x32x32768.ShapeCasts S16x256x64x64
  slices_S16x6400_S16x3072_0_0 : S16x6400.Slices ![0, 0] S16x3072
  shapeCasts_S16x3072_S16x256x12 : S16x3072.ShapeCasts S16x256x12
  slices_S16x6400_S16x3072_0_3072 : S16x6400.Slices ![0, 3072] S16x3072
  slices_S16x6400_S16x256_0_6144 : S16x6400.Slices ![0, 6144] S16x256
  shapeCasts_S16x256_S16x256x1x1 : S16x256.ShapeCasts S16x256x1x1
  shapeCasts_S16x256x64x64_S16x256x4096 : S16x256x64x64.ShapeCasts S16x256x4096
  shapeCasts_S16x256x4096_S16x256x64x64 : S16x256x4096.ShapeCasts S16x256x64x64
  bcast_S16x256x1x1_S16x256x64x64_0_1_2_3 : S16x256x1x1.BroadcastsInDim S16x256x64x64 (![0, 1, 2, 3] : Fin 4 → Fin S16x256x64x64.rank)
  dot_S16x256x12_S16x256x4096_S16x12x4096_1_1_2_2_0_0_wf : DotDims.WF S16x256x12 S16x256x4096 S16x12x4096 [1] [1] [2] [2] [0] [0]
  dot_S16x256x12_S16x12x4096_S16x256x4096_2_1_1_2_0_0_wf : DotDims.WF S16x256x12 S16x12x4096 S16x256x4096 [2] [1] [1] [2] [0] [0]

variable [Facts₀]

def dot_S16x256x12_S16x256x4096_S16x12x4096_1_1_2_2_0_0 : DotDims S16x256x12 S16x256x4096 S16x12x4096 where
  lhsContracting := [1]
  rhsContracting := [1]
  lhsNonContracting := [2]
  rhsNonContracting := [2]
  lhsBatch := [0]
  rhsBatch := [0]
  wf := dot_S16x256x12_S16x256x4096_S16x12x4096_1_1_2_2_0_0_wf
def dot_S16x256x12_S16x12x4096_S16x256x4096_2_1_1_2_0_0 : DotDims S16x256x12 S16x12x4096 S16x256x4096 where
  lhsContracting := [2]
  rhsContracting := [1]
  lhsNonContracting := [1]
  rhsNonContracting := [2]
  lhsBatch := [0]
  rhsBatch := [0]
  wf := dot_S16x256x12_S16x12x4096_S16x256x4096_2_1_1_2_0_0_wf

class Facts : Prop extends Facts₀ where

variable [Facts]
-- ==== Proof.Spec.lean ====
/-
  GroupNorm followed by a rank-12 channel mix and a per-channel shift, as ONE function of the two argument arrays,
  index by index, on the extended reals.

  One batch entry is a slab `x : 256 channels × 4096 positions`. Its 256 channels fall into 32 groups of 8 consecutive
  channels; group `g` holds the 32768 entries `x (8g + k / 4096) (k % 4096)`, `k < 32768`. With `S₁`, `S₂` the sums of
  the group's entries and of their squares,
      mean = S₁ · 2⁻¹⁵,   var = S₂ · 2⁻¹⁵ − mean²,   rstd = (var + ε)^(-1/2),
      xn c n = (x c n − mean (c / 8)) · rstd (c / 8),
      out c n = (xn c n + ∑ r < 12, u c r · ∑ c' < 256, v c' r · xn c' n) + s c.
  The batch entry's `u`, `v` (256 × 12 each) and `s` (256) are consecutive stretches of its row of the parameter array:
  columns 0 … 3071, 3072 … 6143 and 6144 … 6399.
-/
import Idealize.ShloMosaic.PureOps.Ideal
import Idealize.ShloMosaic.Lib.ValueIdx

noncomputable section

open scoped BigOperators

namespace Cert.GroupNormMix

open Idealize.ShloMosaic Idealize.ShloMosaic.ValueIdx

/-- The activations: 16 batch entries × 256 channels × 64 × 64 positions. -/
abbrev SX : Shape := ⟨4, ![16, 256, 64, 64]⟩
/-- The parameters: per batch entry a row of 6400 numbers. -/
abbrev SP : Shape := ⟨2, ![16, 6400]⟩

/-- The channel of the `k`-th entry of group `g`. -/
def gch (g : Fin 32) (k : Fin 32768) : Fin 256 := ⟨8 * g.val + k.val / 4096, by have := g.isLt; have := k.isLt; omega⟩
/-- The position of the `k`-th entry of a group. -/
def gpos (k : Fin 32768) : Fin 4096 := ⟨k.val % 4096, by omega⟩
/-- The group of a channel. -/
def grpOf (c : Fin 256) : Fin 32 := ⟨c.val / 8, by have := c.isLt; omega⟩

/-- `2⁻¹⁵`, the reciprocal of a group's 32768 entries, as the kernel spells it. -/
def invN : EReal := Ideal.ofBits .f32 0x38000000#32
/-- The variance's guard `ε` (the binary32 nearest `10⁻⁶`), spelt alike by both programs. -/
def eps : EReal := Ideal.ofBits .f32 0x358637BD#32

section Slab
variable (x : Fin 256 → Fin 4096 → EReal) (u v : Fin 256 → Fin 12 → EReal) (s : Fin 256 → EReal)

/-- The sum of a group's entries. -/
def gsum (g : Fin 32) : EReal := ∑ k : Fin 32768, x (gch g k) (gpos k)
/-- The sum of the squares of a group's entries. -/
def gsumsq (g : Fin 32) : EReal := ∑ k : Fin 32768, x (gch g k) (gpos k) * x (gch g k) (gpos k)
/-- A group's mean. -/
def mean (g : Fin 32) : EReal := gsum x g * invN
/-- A group's variance, as the mean of the squares less the square of the mean. -/
def var (g : Fin 32) : EReal := gsumsq x g * invN - mean x g * mean x g
/-- A group's reciprocal standard deviation. -/
def rstd (g : Fin 32) : EReal := Ideal.rsqrt (var x g + eps)
/-- The normalized slab. -/
def xn (c : Fin 256) (n : Fin 4096) : EReal := (x c n - mean x (grpOf c)) * rstd x (grpOf c)
/-- The normalized slab projected on the 12 directions `v`. -/
def vtx (r : Fin 12) (n : Fin 4096) : EReal := ∑ c : Fin 256, v c r * xn x c n
/-- The projections spread back over the channels by `u`. -/
def mixed (c : Fin 256) (n : Fin 4096) : EReal := ∑ r : Fin 12, u c r * vtx x v r n
/-- One batch entry's result. -/
def out (c : Fin 256) (n : Fin 4096) : EReal := (xn x c n + mixed x u v c n) + s c

end Slab

/-- Batch entry `b`'s slab of the activations, its 64 × 64 positions flattened row by row. -/
def xOf (X : SX.Idx → EReal) (b : Fin 16) (c : Fin 256) (n : Fin 4096) : EReal :=
  X (ix4 b c (⟨n.val / 64, by have := n.isLt; omega⟩ : Fin 64) (⟨n.val % 64, by omega⟩ : Fin 64))
/-- Batch entry `b`'s `u`: the first 3072 parameters, 12 per channel. -/
def uOf (P : SP.Idx → EReal) (b : Fin 16) (c : Fin 256) (r : Fin 12) : EReal :=
  P (ix2 b (⟨12 * c.val + r.val, by have := c.isLt; have := r.isLt; omega⟩ : Fin 6400))
/-- Batch entry `b`'s `v`: the next 3072 parameters, 12 per channel. -/
def vOf (P : SP.Idx → EReal) (b : Fin 16) (c : Fin 256) (r : Fin 12) : EReal :=
  P (ix2 b (⟨3072 + (12 * c.val + r.val), by have := c.isLt; have := r.isLt; omega⟩ : Fin 6400))
/-- Batch entry `b`'s shift: the last 256 parameters, one per channel. -/
def sOf (P : SP.Idx → EReal) (b : Fin 16) (c : Fin 256) : EReal :=
  P (ix2 b (⟨6144 + c.val, by have := c.isLt; omega⟩ : Fin 6400))

/-- The result at batch entry `b`, channel `c`, position `(h, w)`. -/
def resultAt (X : SX.Idx → EReal) (P : SP.Idx → EReal) (b : Fin 16) (c : Fin 256) (h w : Fin 64) : EReal :=
  out (xOf X b) (uOf P b) (vOf P b) (sOf P b) c (⟨64 * h.val + w.val, by have := h.isLt; have := w.isLt; omega⟩ : Fin 4096)

/-- The whole result array as a function of the two argument arrays. -/
def result (X : SX.Idx → EReal) (P : SP.Idx → EReal) : SX.Idx → EReal :=
  fun i => resultAt X P (i 0) (i 1) (i 2) (i 3)

theorem result_ix4 (X : SX.Idx → EReal) (P : SP.Idx → EReal) (b : Fin 16) (c : Fin 256) (h w : Fin 64) :
    result X P (ix4 b c h w) = resultAt X P b c h w := rfl

end Cert.GroupNormMix

end
-- ==== Proof.KernelBody.lean ====
/-
  The kernel body's stored value, read at one entry of the block, is the slab function `GroupNormMix.out` of the four
  loaded blocks.
-/
import proofs.«115724_j807453851999_1_alg».proof.Proof.Gen.KernelIdeal.Skeleton
import proofs.«115724_j807453851999_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Idealize.ShloMosaic Idealize.ShloMosaic.ValueIdx Cert.KernelIdeal Cert.KernelIdeal.Gen Cert.GroupNormMix

/-! ## The layout operations read at an index -/

section Layout
variable {α : Type}

/-- The slab's 256 channels regrouped as 32 groups of 8: group `g`'s `j`-th channel is channel `8g + j`. -/
private theorem grouped_apply (y : S256x4096.Idx → α) (h : S256x4096.ShapeCasts S32x8x4096)
    (g : Fin 32) (j : Fin 8) (n : Fin 4096) :
    shapeCast S32x8x4096 y h (ix3 g j n)
      = y (ix2 (⟨8 * g.val + j.val, by have := g.isLt; have := j.isLt; omega⟩ : Fin 256) n) :=
  shapeCast_apply y h _ _ (by
    rw [Shape.rowMajor_val_three, Shape.rowMajor_val_two]
    show (8 * g.val + j.val) * 4096 + n.val = (g.val * 8 + j.val) * 4096 + n.val
    omega)

/-- The grouped array laid back as 256 channels: channel `c` is entry `c % 8` of group `c / 8`. -/
private theorem ungrouped_apply (z : S32x8x4096.Idx → α) (h : S32x8x4096.ShapeCasts S256x4096)
    (c : Fin 256) (n : Fin 4096) :
    shapeCast S256x4096 z h (ix2 c n)
      = z (ix3 (⟨c.val / 8, by have := c.isLt; omega⟩ : Fin 32) (⟨c.val % 8, by omega⟩ : Fin 8) n) :=
  shapeCast_apply z h _ _ (by
    rw [Shape.rowMajor_val_three, Shape.rowMajor_val_two]
    show ((c.val / 8) * 8 + c.val % 8) * 4096 + n.val = c.val * 4096 + n.val
    have := Nat.div_add_mod c.val 8
    omega)

/-- A per-group vector as a `32 × 1 × 1` column. -/
private theorem column_apply (w : S32.Idx → α) (h : S32.ShapeCasts S32x1x1) (g : Fin 32) :
    shapeCast S32x1x1 w h (ix3 g (0 : Fin 1) (0 : Fin 1)) = w (ix1 g) :=
  shapeCast_apply w h _ _ (by
    rw [Shape.rowMajor_val_three, Shape.rowMajor_val_one]
    show g.val = (g.val * 1 + 0) * 1 + 0
    omega)

/-- A per-group column spread over the group's 8 channels and 4096 positions. -/
private theorem spread_group_apply (w : S32x1x1.Idx → α) (h : S32x1x1.Broadcasts S32x8x4096)
    (g : Fin 32) (j : Fin 8) (n : Fin 4096) :
    broadcastTo S32x8x4096 w h (ix3 g j n) = w (ix3 g (0 : Fin 1) (0 : Fin 1)) := by
  refine broadcastTo_apply w h (ix3 g j n) (ix3 g (0 : Fin 1) (0 : Fin 1)) fun ax => ?_
  match ax with
  | ⟨0, _⟩ => rfl
  | ⟨1, _⟩ => rfl
  | ⟨2, _⟩ => rfl

/-- A per-channel column spread over the 4096 positions. -/
private theorem spread_channel_apply (w : S256x1.Idx → α) (h : S256x1.Broadcasts S256x4096)
    (c : Fin 256) (n : Fin 4096) :
    broadcastTo S256x4096 w h (ix2 c n) = w (ix2 c (0 : Fin 1)) := by
  refine broadcastTo_apply w h (ix2 c n) (ix2 c (0 : Fin 1)) fun ax => ?_
  match ax with
  | ⟨0, _⟩ => rfl
  | ⟨1, _⟩ => rfl

end Layout

/-! ## A group's sum: the reduction over a group's two inner axes as a sum over its 32768 entries -/

/-- An index of the grouped array drops to group `g` exactly when its first coordinate is `g`. -/
private theorem drop_eq_iff (h : S32x8x4096.Reduces [1, 2] S32) (i : S32x8x4096.Idx) (g : Fin 32) :
    h.drop i = ix1 g ↔ i 0 = g := by
  constructor
  · intro e
    have e0 := congrArg Fin.val (congrFun e 0)
    rw [h.drop_apply_val_of_eq i 0 0] at e0
    exact Fin.ext e0
  · intro e
    funext b
    match b with
    | ⟨0, _⟩ =>
      apply Fin.ext
      exact (h.drop_apply_val_of_eq i 0 0).trans (congrArg Fin.val e)

/-- The indices that drop to group `g` are `(g, k / 4096, k % 4096)`, `k < 32768`, each once: the sum over them is
    the sum over `k`. -/
private theorem sum_group (h : S32x8x4096.Reduces [1, 2] S32) (f : S32x8x4096.Idx → EReal) (g : Fin 32) :
    ∑ i ∈ Finset.univ.filter (fun i => h.drop i = ix1 g), f i
      = ∑ k : Fin 32768, f (ix3 g (⟨k.val / 4096, by omega⟩ : Fin 8) (⟨k.val % 4096, by omega⟩ : Fin 4096)) := by
  symm
  refine Finset.sum_bij' (fun k _ => ix3 g (⟨k.val / 4096, by omega⟩ : Fin 8) (⟨k.val % 4096, by omega⟩ : Fin 4096))
    (fun i _ => (⟨(i 1).val * 4096 + (i 2).val, by
      have h1 : (i 1).val < 8 := (i 1).isLt; have h2 : (i 2).val < 4096 := (i 2).isLt; omega⟩ : Fin 32768))
    ?_ ?_ ?_ ?_ ?_
  · intro k _
    rw [Finset.mem_filter]
    exact ⟨Finset.mem_univ _, (drop_eq_iff h _ g).2 rfl⟩
  · intro i _; exact Finset.mem_univ _
  · intro k _
    apply Fin.ext
    show (k.val / 4096) * 4096 + k.val % 4096 = k.val
    omega
  · intro i hi
    rw [Finset.mem_filter] at hi
    have e0 : i 0 = g := (drop_eq_iff h i g).1 hi.2
    funext a
    match a with
    | ⟨0, _⟩ => exact e0.symm
    | ⟨1, _⟩ =>
      apply Fin.ext
      show ((i 1).val * 4096 + (i 2).val) / 4096 = (i 1).val
      have h2 : (i 2).val < 4096 := (i 2).isLt
      omega
    | ⟨2, _⟩ =>
      apply Fin.ext
      show ((i 1).val * 4096 + (i 2).val) % 4096 = (i 2).val
      have h2 : (i 2).val < 4096 := (i 2).isLt
      omega
  · intro k _; rfl

/-- The kernel's sum over a group's two inner axes, at group `g`, of a grouped array whose entry `(g, j, n)` is
    `X (8g + j) n`: the sum of `X` over the group's 32768 entries, channel `gch g k`, position `gpos k`. -/
private theorem group_sum_apply (v : FVec Ideal S32x8x4096 .f32) (h : S32x8x4096.Reduces [1, 2] S32)
    (hφ : FKind.Formats .f32) (hacc : (0x00000000#32 : BitVec 32) = FKind.add.neutral .f32 hφ)
    (X : Fin 256 → Fin 4096 → EReal)
    (hv : ∀ (g : Fin 32) (j : Fin 8) (n : Fin 4096),
      v (ix3 g j n) = X (⟨8 * g.val + j.val, by have := g.isLt; have := j.isLt; omega⟩ : Fin 256) n)
    (g : Fin 32) :
    multiReduction .add [1, 2] S32 v 0x00000000#32 h hφ hacc (ix1 g) = ∑ k : Fin 32768, X (gch g k) (gpos k) := by
  show Ideal.reduceAdd h v (ix1 g) = _
  unfold Ideal.reduceAdd
  refine (sum_group h v g).trans (Finset.sum_congr rfl fun k _ => ?_)
  exact hv g _ _

/-! ## The two matrix products read at an index -/

/-- The coordinates of the operands' indices of the first product (contract the channel axis of both operands), at
    the literal axes. -/
private theorem proj_lhs0 (j : S12x4096.Idx) (k : dot_S256x12_S256x4096_S12x4096_0_0_1_1_n_n.contr.Idx) :
    (dot_S256x12_S256x4096_S12x4096_0_0_1_1_n_n.lhsIdx j k 0).val = (k ⟨0, by decide⟩).val :=
  dot_S256x12_S256x4096_S12x4096_0_0_1_1_n_n.lhsIdx_val_of_single (cl := 0) rfl j k
private theorem proj_rhs0 (j : S12x4096.Idx) (k : dot_S256x12_S256x4096_S12x4096_0_0_1_1_n_n.contr.Idx) :
    (dot_S256x12_S256x4096_S12x4096_0_0_1_1_n_n.rhsIdx j k 0).val = (k ⟨0, by decide⟩).val :=
  dot_S256x12_S256x4096_S12x4096_0_0_1_1_n_n.rhsIdx_val_of_single (cr := 0) rfl j k
private theorem proj_lhs1 (j : S12x4096.Idx) (k : dot_S256x12_S256x4096_S12x4096_0_0_1_1_n_n.contr.Idx) :
    (dot_S256x12_S256x4096_S12x4096_0_0_1_1_n_n.lhsIdx j k 1).val = (j 0).val := by
  unfold DotDims.lhsIdx
  rw [dif_neg (show ¬(1 : Fin S256x12.rank) ∈ dot_S256x12_S256x4096_S12x4096_0_0_1_1_n_n.lhsBatch by decide),
    dif_pos (show (1 : Fin S256x12.rank) ∈ dot_S256x12_S256x4096_S12x4096_0_0_1_1_n_n.lhsNonContracting by decide)]
  rfl
private theorem proj_rhs1 (j : S12x4096.Idx) (k : dot_S256x12_S256x4096_S12x4096_0_0_1_1_n_n.contr.Idx) :
    (dot_S256x12_S256x4096_S12x4096_0_0_1_1_n_n.rhsIdx j k 1).val = (j 1).val := by
  unfold DotDims.rhsIdx
  rw [dif_neg (show ¬(1 : Fin S256x4096.rank) ∈ dot_S256x12_S256x4096_S12x4096_0_0_1_1_n_n.rhsBatch by decide),
    dif_pos (show (1 : Fin S256x4096.rank) ∈ dot_S256x12_S256x4096_S12x4096_0_0_1_1_n_n.rhsNonContracting by decide)]
  rfl

/-- The projection on the 12 directions: entry `(r, n)` of the first product is `∑ c, V c r · Y c n`. -/
private theorem project_apply (V : FVec Ideal S256x12 .bf16) (Y : FVec Ideal S256x4096 .bf16) (r : Fin 12) (n : Fin 4096) :
    matmul dot_S256x12_S256x4096_S12x4096_0_0_1_1_n_n none V Y (constant S12x4096 .f32 0x00000000#32) (ix2 r n)
      = ∑ c : Fin 256, V (ix2 c r) * Y (ix2 c n) := by
  rw [show matmul dot_S256x12_S256x4096_S12x4096_0_0_1_1_n_n none V Y (constant S12x4096 .f32 0x00000000#32) (ix2 r n) = _
    from Ideal.matmul_constant_zero_apply dot_S256x12_S256x4096_S12x4096_0_0_1_1_n_n none V Y (ix2 r n)]
  rw [← Equiv.sum_comp (contrEquiv1 dot_S256x12_S256x4096_S12x4096_0_0_1_1_n_n 256 rfl rfl).symm]
  refine Finset.sum_congr rfl fun c _ => ?_
  congr 1
  · refine congrArg V (funext fun a => Fin.ext ?_)
    match a with
    | ⟨0, _⟩ => exact (proj_lhs0 _ _).trans (contrEquiv1_symm_val dot_S256x12_S256x4096_S12x4096_0_0_1_1_n_n 256 rfl rfl c)
    | ⟨1, _⟩ => exact proj_lhs1 _ _
  · refine congrArg Y (funext fun a => Fin.ext ?_)
    match a with
    | ⟨0, _⟩ => exact (proj_rhs0 _ _).trans (contrEquiv1_symm_val dot_S256x12_S256x4096_S12x4096_0_0_1_1_n_n 256 rfl rfl c)
    | ⟨1, _⟩ => exact proj_rhs1 _ _

/-- The coordinates of the operands' indices of the second product (contract the direction axis: axis 1 of the left
    operand, axis 0 of the right), at the literal axes. -/
private theorem mix_lhs1 (j : S256x4096.Idx) (k : dot_S256x12_S12x4096_S256x4096_1_0_0_1_n_n.contr.Idx) :
    (dot_S256x12_S12x4096_S256x4096_1_0_0_1_n_n.lhsIdx j k 1).val = (k ⟨0, by decide⟩).val :=
  dot_S256x12_S12x4096_S256x4096_1_0_0_1_n_n.lhsIdx_val_of_single (cl := 1) rfl j k
private theorem mix_rhs0 (j : S256x4096.Idx) (k : dot_S256x12_S12x4096_S256x4096_1_0_0_1_n_n.contr.Idx) :
    (dot_S256x12_S12x4096_S256x4096_1_0_0_1_n_n.rhsIdx j k 0).val = (k ⟨0, by decide⟩).val :=
  dot_S256x12_S12x4096_S256x4096_1_0_0_1_n_n.rhsIdx_val_of_single (cr := 0) rfl j k
private theorem mix_lhs0 (j : S256x4096.Idx) (k : dot_S256x12_S12x4096_S256x4096_1_0_0_1_n_n.contr.Idx) :
    (dot_S256x12_S12x4096_S256x4096_1_0_0_1_n_n.lhsIdx j k 0).val = (j 0).val := by
  unfold DotDims.lhsIdx
  rw [dif_neg (show ¬(0 : Fin S256x12.rank) ∈ dot_S256x12_S12x4096_S256x4096_1_0_0_1_n_n.lhsBatch by decide),
    dif_pos (show (0 : Fin S256x12.rank) ∈ dot_S256x12_S12x4096_S256x4096_1_0_0_1_n_n.lhsNonContracting by decide)]
  rfl
private theorem mix_rhs1 (j : S256x4096.Idx) (k : dot_S256x12_S12x4096_S256x4096_1_0_0_1_n_n.contr.Idx) :
    (dot_S256x12_S12x4096_S256x4096_1_0_0_1_n_n.rhsIdx j k 1).val = (j 1).val := by
  unfold DotDims.rhsIdx
  rw [dif_neg (show ¬(1 : Fin S12x4096.rank) ∈ dot_S256x12_S12x4096_S256x4096_1_0_0_1_n_n.rhsBatch by decide),
    dif_pos (show (1 : Fin S12x4096.rank) ∈ dot_S256x12_S12x4096_S256x4096_1_0_0_1_n_n.rhsNonContracting by decide)]
  rfl

/-- The spreading back over the channels: entry `(c, n)` of the second product is `∑ r, U c r · W r n`. -/
private theorem spread_apply (Um : FVec Ideal S256x12 .bf16) (W : FVec Ideal S12x4096 .bf16) (c : Fin 256) (n : Fin 4096) :
    matmul dot_S256x12_S12x4096_S256x4096_1_0_0_1_n_n none Um W (constant S256x4096 .f32 0x00000000#32) (ix2 c n)
      = ∑ r : Fin 12, Um (ix2 c r) * W (ix2 r n) := by
  rw [show matmul dot_S256x12_S12x4096_S256x4096_1_0_0_1_n_n none Um W (constant S256x4096 .f32 0x00000000#32) (ix2 c n) = _
    from Ideal.matmul_constant_zero_apply dot_S256x12_S12x4096_S256x4096_1_0_0_1_n_n none Um W (ix2 c n)]
  rw [← Equiv.sum_comp (contrEquiv1 dot_S256x12_S12x4096_S256x4096_1_0_0_1_n_n 12 rfl rfl).symm]
  refine Finset.sum_congr rfl fun r _ => ?_
  congr 1
  · refine congrArg Um (funext fun a => Fin.ext ?_)
    match a with
    | ⟨0, _⟩ => exact mix_lhs0 _ _
    | ⟨1, _⟩ => exact (mix_lhs1 _ _).trans (contrEquiv1_symm_val dot_S256x12_S12x4096_S256x4096_1_0_0_1_n_n 12 rfl rfl r)
  · refine congrArg W (funext fun a => Fin.ext ?_)
    match a with
    | ⟨0, _⟩ => exact (mix_rhs0 _ _).trans (contrEquiv1_symm_val dot_S256x12_S12x4096_S256x4096_1_0_0_1_n_n 12 rfl rfl r)
    | ⟨1, _⟩ => exact mix_rhs1 _ _

/-! ## The body's stages, each read at an index

`X c n` is the activations' block at channel `c`, position `n`; the statistics are per group `g` of 8 channels. -/

section Stages
variable (x0 : Vec Ideal S1x256x4096 .f32) (x1 x2 : Vec Ideal S1x256x12 .f32) (x3 : Vec Ideal S1x256x1 .f32)

/-- The activations' block as 32 groups × 8 channels × 4096 positions. -/
private def grouped : FVec Ideal S32x8x4096 .f32 :=
  shapeCast S32x8x4096 (shapeCast S256x4096 x0 shapeCasts_S1x256x4096_S256x4096) shapeCasts_S256x4096_S32x8x4096

private theorem grouped_at (g : Fin 32) (j : Fin 8) (n : Fin 4096) :
    grouped x0 (ix3 g j n)
      = x0 (ix3 (0 : Fin 1) (⟨8 * g.val + j.val, by have := g.isLt; have := j.isLt; omega⟩ : Fin 256) n) := by
  unfold grouped
  refine (grouped_apply _ _ g j n).trans ?_
  exact shapeCast_1ab_ab_apply x0 _ _ n

/-- The groups' means, as a column: the group's sum times `2⁻¹⁵`. -/
private def meanCol : FVec Ideal S32x1x1 .f32 :=
  mulf (F := Ideal)
    (shapeCast S32x1x1
      (multiReduction (F := Ideal) .add [1, 2] S32 (grouped x0) 0x00000000#32 reduces_S32x8x4096_S32 (.inl rfl) rfl)
      shapeCasts_S32_S32x1x1)
    (broadcast S32x1x1 (Scalar.ofBits (F := Ideal) .f32 0x38000000#32))

private theorem meanCol_at (g : Fin 32) :
    meanCol x0 (ix3 g (0 : Fin 1) (0 : Fin 1)) = mean (fun c n => x0 (ix3 (0 : Fin 1) c n)) g := by
  unfold meanCol
  refine (mulf_apply _ _ _).trans ?_
  unfold mean gsum invN
  refine congrArg (· * Ideal.ofBits .f32 0x38000000#32) ?_
  refine (column_apply _ _ g).trans ?_
  exact group_sum_apply _ _ _ _ (fun c n => x0 (ix3 (0 : Fin 1) c n)) (fun g j n => grouped_at x0 g j n) g

/-- The groups' reciprocal standard deviations, as a column. -/
private def rstdCol : FVec Ideal S32x1x1 .f32 :=
  rsqrt (F := Ideal)
    (addf (F := Ideal)
      (subf (F := Ideal)
        (mulf (F := Ideal)
          (shapeCast S32x1x1
            (multiReduction (F := Ideal) .add [1, 2] S32 (mulf (F := Ideal) (grouped x0) (grouped x0)) 0x00000000#32
              reduces_S32x8x4096_S32 (.inl rfl) rfl)
            shapeCasts_S32_S32x1x1)
          (broadcast S32x1x1 (Scalar.ofBits (F := Ideal) .f32 0x38000000#32)))
        (mulf (F := Ideal) (meanCol x0) (meanCol x0)))
      (broadcast S32x1x1 (Scalar.ofBits (F := Ideal) .f32 0x358637BD#32)))

private theorem sumsq_at (g : Fin 32) :
    shapeCast S32x1x1
        (multiReduction (F := Ideal) .add [1, 2] S32 (mulf (F := Ideal) (grouped x0) (grouped x0)) 0x00000000#32
          reduces_S32x8x4096_S32 (.inl rfl) rfl)
        shapeCasts_S32_S32x1x1 (ix3 g (0 : Fin 1) (0 : Fin 1))
      = gsumsq (fun c n => x0 (ix3 (0 : Fin 1) c n)) g := by
  refine (column_apply _ _ g).trans ?_
  unfold gsumsq
  exact group_sum_apply _ _ _ _ (fun c n => x0 (ix3 (0 : Fin 1) c n) * x0 (ix3 (0 : Fin 1) c n))
    (fun g j n => (mulf_apply _ _ _).trans (by rw [grouped_at])) g

private theorem rstdCol_at (g : Fin 32) :
    rstdCol x0 (ix3 g (0 : Fin 1) (0 : Fin 1)) = rstd (fun c n => x0 (ix3 (0 : Fin 1) c n)) g := by
  unfold rstdCol
  show Ideal.rsqrt ((_ * Ideal.ofBits .f32 0x38000000#32
      - meanCol x0 (ix3 g (0 : Fin 1) (0 : Fin 1)) * meanCol x0 (ix3 g (0 : Fin 1) (0 : Fin 1)))
      + Ideal.ofBits .f32 0x358637BD#32) = _
  rw [sumsq_at, meanCol_at]
  rfl

/-- The normalized block. -/
private def xnBlock : FVec Ideal S256x4096 .f32 :=
  shapeCast S256x4096
    (mulf (F := Ideal)
      (subf (F := Ideal) (grouped x0) (broadcastTo S32x8x4096 (meanCol x0) broadcasts_S32x1x1_S32x8x4096))
      (broadcastTo S32x8x4096 (rstdCol x0) broadcasts_S32x1x1_S32x8x4096))
    shapeCasts_S32x8x4096_S256x4096

private theorem xnBlock_at (c : Fin 256) (n : Fin 4096) :
    xnBlock x0 (ix2 c n) = xn (fun c n => x0 (ix3 (0 : Fin 1) c n)) c n := by
  unfold xnBlock
  refine (ungrouped_apply _ _ c n).trans ?_
  refine (mulf_apply _ _ _).trans ?_
  rw [subf_apply, spread_group_apply, spread_group_apply, grouped_at, meanCol_at, rstdCol_at]
  unfold xn grpOf
  have hc : (⟨8 * (c.val / 8) + c.val % 8, by have := c.isLt; omega⟩ : Fin 256) = c := Fin.ext (by
    show 8 * (c.val / 8) + c.val % 8 = c.val
    omega)
  rw [hc]

/-- The normalized block projected on the 12 directions. -/
private def vtxBlock : FVec Ideal S12x4096 .f32 :=
  matmul (F := Ideal) dot_S256x12_S256x4096_S12x4096_0_0_1_1_n_n none
    (truncf (F := Ideal) .bf16 (shapeCast S256x12 x2 shapeCasts_S1x256x12_S256x12) bitsLt_bf16_f32)
    (truncf (F := Ideal) .bf16 (xnBlock x0) bitsLt_bf16_f32)
    (constant (F := Ideal) S12x4096 .f32 0x00000000#32)

private theorem vtxBlock_at (r : Fin 12) (n : Fin 4096) :
    vtxBlock x0 x2 (ix2 r n)
      = vtx (fun c n => x0 (ix3 (0 : Fin 1) c n)) (fun c r => x2 (ix3 (0 : Fin 1) c r)) r n := by
  unfold vtxBlock
  refine (project_apply _ _ r n).trans ?_
  unfold vtx
  refine Finset.sum_congr rfl fun c _ => ?_
  rw [truncf_apply, truncf_apply, xnBlock_at, shapeCast_1ab_ab_apply]

/-- The projections spread back over the channels. -/
private def mixBlock : FVec Ideal S256x4096 .f32 :=
  matmul (F := Ideal) dot_S256x12_S12x4096_S256x4096_1_0_0_1_n_n none
    (truncf (F := Ideal) .bf16 (shapeCast S256x12 x1 shapeCasts_S1x256x12_S256x12) bitsLt_bf16_f32)
    (truncf (F := Ideal) .bf16 (vtxBlock x0 x2) bitsLt_bf16_f32)
    (constant (F := Ideal) S256x4096 .f32 0x00000000#32)

private theorem mixBlock_at (c : Fin 256) (n : Fin 4096) :
    mixBlock x0 x1 x2 (ix2 c n)
      = mixed (fun c n => x0 (ix3 (0 : Fin 1) c n)) (fun c r => x1 (ix3 (0 : Fin 1) c r))
          (fun c r => x2 (ix3 (0 : Fin 1) c r)) c n := by
  unfold mixBlock
  refine (spread_apply _ _ c n).trans ?_
  unfold mixed
  refine Finset.sum_congr rfl fun r _ => ?_
  rw [truncf_apply, truncf_apply, vtxBlock_at, shapeCast_1ab_ab_apply]

/-- The body's stored value is these stages composed: the sum of the normalized block, the mix and the spread shift,
    with a leading unit axis. -/
private theorem pay_eq :
    k0_pay1 (k0_pay2 x0 x1 x2 x3)
      = shapeCast S1x256x4096
          (addf (F := Ideal) (addf (F := Ideal) (xnBlock x0) (mixBlock x0 x1 x2))
            (broadcastTo S256x4096 (shapeCast S256x1 x3 shapeCasts_S1x256x1_S256x1) broadcasts_S256x1_S256x4096))
          shapeCasts_S256x4096_S1x256x4096 := rfl

end Stages

/-- The body's result at channel `c`, position `n` of its block: `out` of the loaded activations, `u`, `v` and shift. -/
theorem body_eq (x0 : Vec Ideal S1x256x4096 .f32) (x1 x2 : Vec Ideal S1x256x12 .f32) (x3 : Vec Ideal S1x256x1 .f32)
    (c : Fin 256) (n : Fin 4096) :
    k0_pay1 (k0_pay2 x0 x1 x2 x3) (ix3 (0 : Fin 1) c n)
      = out (fun c n => x0 (ix3 (0 : Fin 1) c n)) (fun c r => x1 (ix3 (0 : Fin 1) c r)) (fun c r => x2 (ix3 (0 : Fin 1) c r))
          (fun c => x3 (ix3 (0 : Fin 1) c (0 : Fin 1))) c n := by
  rw [pay_eq]
  refine (shapeCast_ab_1ab_apply _ _ (0 : Fin 1) c n).trans ?_
  rw [addf_apply, addf_apply, xnBlock_at, mixBlock_at, spread_channel_apply, shapeCast_1ab_ab_apply]
  rfl

end Cert.KernelIdeal.Body

end
-- ==== Proof.KernelArrays.lean ====
/-
  The four arrays the kernel region is entered with are re-laid pieces of the two arguments: the activations with their
  64 × 64 positions flattened, and the three consecutive stretches of each parameter row cut into 256 channels.
-/
import proofs.«115724_j807453851999_1_alg».proof.Proof.Gen.KernelIdeal.Frame
import proofs.«115724_j807453851999_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Arrays

open Idealize.ShloMosaic Idealize.ShloMosaic.TcCoe Idealize.ShloMosaic.ValueIdx Idealize.SL.Sem
open Cert.KernelIdeal Cert.KernelIdeal.Gen Cert.GroupNormMix

variable (m : (ℓ : Loc nD τ sig) → Buf (Elt Ideal) ℓ)

/-- The activations as the region finds them: the first argument with its positions flattened. -/
private theorem v0_eq (c : Dev nD) :
    (V m c main_v0 : S16x256x4096.Idx → EReal)
      = shapeCast S16x256x4096 (m ((c : Thread nD τ).loc main_arg0)) shapeCasts_S16x256x64x64_S16x256x4096 := by
  show StableHlo.after hostOps0 (fun b => m (c, b)) (Proc.devRef .tc main_v0) = _
  after_results
  rfl

/-- `u` as the region finds it: columns 0 … 3071 of the parameter rows, 12 per channel. -/
private theorem v2_eq (c : Dev nD) :
    (V m c main_v2 : S16x256x12.Idx → EReal)
      = shapeCast S16x256x12 (extractStridedSlice S16x3072 ![0, 0] (m ((c : Thread nD τ).loc main_arg1))
          slices_S16x6400_S16x3072_0_0) shapeCasts_S16x3072_S16x256x12 := by
  show StableHlo.after hostOps0 (fun b => m (c, b)) (Proc.devRef .tc main_v2) = _
  after_results
  rfl

/-- `v` as the region finds it: columns 3072 … 6143 of the parameter rows, 12 per channel. -/
private theorem v4_eq (c : Dev nD) :
    (V m c main_v4 : S16x256x12.Idx → EReal)
      = shapeCast S16x256x12 (extractStridedSlice S16x3072 ![0, 3072] (m ((c : Thread nD τ).loc main_arg1))
          slices_S16x6400_S16x3072_0_3072) shapeCasts_S16x3072_S16x256x12 := by
  show StableHlo.after hostOps0 (fun b => m (c, b)) (Proc.devRef .tc main_v4) = _
  after_results
  rfl

/-- The shift as the region finds it: columns 6144 … 6399 of the parameter rows, one per channel. -/
private theorem v6_eq (c : Dev nD) :
    (V m c main_v6 : S16x256x1.Idx → EReal)
      = shapeCast S16x256x1 (extractStridedSlice S16x256 ![0, 6144] (m ((c : Thread nD τ).loc main_arg1))
          slices_S16x6400_S16x256_0_6144) shapeCasts_S16x256_S16x256x1 := by
  show StableHlo.after hostOps0 (fun b => m (c, b)) (Proc.devRef .tc main_v6) = _
  after_results
  rfl

/-- The region's activations at batch entry `b`, channel `ch`, flattened position `n`. -/
theorem entry_x (c : Dev nD) (b : Fin 16) (ch : Fin 256) (n : Fin 4096) :
    V m c main_v0 (ix3 b ch n) = xOf (m ((c : Thread nD τ).loc main_arg0)) b ch n := by
  rw [v0_eq]
  unfold xOf
  refine shapeCast_apply _ _ _ _ ?_
  -- position n = 64 · (n / 64) + n % 64 within the channel's 4096
  show (S16x256x64x64.rowMajor _).val = (S16x256x4096.rowMajor _).val
  rw [Shape.rowMajor_val_four, Shape.rowMajor_val_three]
  show ((b.val * 256 + ch.val) * 64 + n.val / 64) * 64 + n.val % 64 = (b.val * 256 + ch.val) * 4096 + n.val
  omega

/-- The region's `u` operand. -/
theorem entry_u (c : Dev nD) (b : Fin 16) (ch : Fin 256) (r : Fin 12) :
    V m c main_v2 (ix3 b ch r) = uOf (m ((c : Thread nD τ).loc main_arg1)) b ch r := by
  rw [v2_eq]
  unfold uOf
  -- entry (ch, r) of the 256 × 12 cut is column 12 · ch + r of the stretch, which starts at column 0
  refine (shapeCast_apply _ _ (ix3 b ch r)
    (ix2 b (⟨12 * ch.val + r.val, by have := ch.isLt; have := r.isLt; omega⟩ : Fin 3072)) ?_).trans ?_
  · show (S16x3072.rowMajor _).val = (S16x256x12.rowMajor _).val
    rw [Shape.rowMajor_val_two, Shape.rowMajor_val_three]
    show b.val * 3072 + (12 * ch.val + r.val) = (b.val * 256 + ch.val) * 12 + r.val
    omega
  · refine extractStridedSlice_apply _ _ _ _ _ fun a => ?_
    match a with
    | ⟨0, _⟩ => show b.val = 0 + b.val; omega
    | ⟨1, _⟩ => show 12 * ch.val + r.val = 0 + (12 * ch.val + r.val); omega

/-- The region's `v` operand. -/
theorem entry_v (c : Dev nD) (b : Fin 16) (ch : Fin 256) (r : Fin 12) :
    V m c main_v4 (ix3 b ch r) = vOf (m ((c : Thread nD τ).loc main_arg1)) b ch r := by
  rw [v4_eq]
  unfold vOf
  -- entry (ch, r) of the 256 × 12 cut is column 12 · ch + r of the stretch, which starts at column 3072
  refine (shapeCast_apply _ _ (ix3 b ch r)
    (ix2 b (⟨12 * ch.val + r.val, by have := ch.isLt; have := r.isLt; omega⟩ : Fin 3072)) ?_).trans ?_
  · show (S16x3072.rowMajor _).val = (S16x256x12.rowMajor _).val
    rw [Shape.rowMajor_val_two, Shape.rowMajor_val_three]
    show b.val * 3072 + (12 * ch.val + r.val) = (b.val * 256 + ch.val) * 12 + r.val
    omega
  · refine extractStridedSlice_apply _ _ _ _ _ fun a => ?_
    match a with
    | ⟨0, _⟩ => show b.val = 0 + b.val; omega
    | ⟨1, _⟩ => show 3072 + (12 * ch.val + r.val) = 3072 + (12 * ch.val + r.val); rfl

/-- The region's shift operand. -/
theorem entry_s (c : Dev nD) (b : Fin 16) (ch : Fin 256) :
    V m c main_v6 (ix3 b ch (0 : Fin 1)) = sOf (m ((c : Thread nD τ).loc main_arg1)) b ch := by
  rw [v6_eq]
  unfold sOf
  -- channel ch's shift is column ch of the stretch, which starts at column 6144
  refine (shapeCast_apply _ _ (ix3 b ch (0 : Fin 1)) (ix2 b ch) ?_).trans ?_
  · show (S16x256.rowMajor _).val = (S16x256x1.rowMajor _).val
    rw [Shape.rowMajor_val_two, Shape.rowMajor_val_three]
    show b.val * 256 + ch.val = (b.val * 256 + ch.val) * 1 + 0
    omega
  · refine extractStridedSlice_apply _ _ _ _ _ fun a => ?_
    match a with
    | ⟨0, _⟩ => show b.val = 0 + b.val; omega
    | ⟨1, _⟩ => show 6144 + ch.val = 6144 + ch.val; rfl

end Cert.KernelIdeal.Arrays

end
-- ==== Proof.KernelValue.lean ====
/-
  The kernel's run read back: grid point `t` writes batch entry `t`'s slab of the output array, the slabs tile it, and
  the final reshape unflattens the positions; so the program's result is `GroupNormMix.result` of its two arguments.
-/
import proofs.«115724_j807453851999_1_alg».proof.Proof.Gen.KernelIdeal.Frame
import proofs.«115724_j807453851999_1_alg».proof.Proof.Spec
import proofs.«115724_j807453851999_1_alg».proof.Proof.KernelBody
import proofs.«115724_j807453851999_1_alg».proof.Proof.KernelArrays
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KValue

open Idealize.ShloMosaic Idealize.ShloMosaic.TcCoe Idealize.ShloMosaic.ValueIdx Idealize.SL.Sem
open Cert.KernelIdeal Cert.KernelIdeal.Gen Cert.GroupNormMix

variable (m : (ℓ : Loc nD τ sig) → Buf (Elt Ideal) ℓ) (ρ : Dev nD → PrngReg)

/-- The output array as a function of the four arrays the region is entered with: per batch entry, `out` of that
    entry's slabs. -/
def regionOut (A0 : S16x256x4096.Idx → EReal) (A1 A2 : S16x256x12.Idx → EReal) (A3 : S16x256x1.Idx → EReal) :
    S16x256x4096.Idx → EReal := fun i =>
  out (fun c n => A0 (ix3 (i 0) c n)) (fun c r => A1 (ix3 (i 0) c r)) (fun c r => A2 (ix3 (i 0) c r))
    (fun c => A3 (ix3 (i 0) c (0 : Fin 1))) (i 1) (i 2)

/-- The zero offsets of a whole-block rectangle. -/
private theorem hz : (![0, 0, 0] : Fin 3 → Nat) = fun _ => 0 := funext fun a => by fin_cases a <;> rfl

/-- Grid point `t`'s block of every window is block `(t, 0, 0)`: batch entry `t`'s slab. -/
private theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The activations' block at point `t` is batch entry `t`'s slab of the array. -/
private theorem blk0_apply (c : Dev nD) (t : Fin cfg0.N) (b : Fin 16) (hb : b.val = t.val) (ch : Fin 256) (n : Fin 4096) :
    (iblk m c 0 t : Vec Ideal S1x256x4096 .f32) (ix3 (0 : Fin 1) ch n) = V m c main_v0 (ix3 b ch n) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = b.val; rw [e0, hb]; omega
  | ⟨1, _⟩ => show win0_0.index t (1 : Fin 3) * 256 + 1 * ch.val = ch.val; rw [e1]; omega
  | ⟨2, _⟩ => show win0_0.index t (2 : Fin 3) * 4096 + 1 * n.val = n.val; rw [e2]; omega

/-- The `u` block at point `t` is batch entry `t`'s slab of its array. -/
private theorem blk1_apply (c : Dev nD) (t : Fin cfg0.N) (b : Fin 16) (hb : b.val = t.val) (ch : Fin 256) (r : Fin 12) :
    (iblk m c 1 t : Vec Ideal S1x256x12 .f32) (ix3 (0 : Fin 1) ch r) = V m c main_v2 (ix3 b ch r) := by
  obtain ⟨-, -, -, e0, e1, e2, -⟩ := idx_facts t
  unfold iblk
  rw [View.read_apply]
  show V m c main_v2 _ = V m c main_v2 _
  congr 1
  funext a
  apply Fin.ext
  match a with
  | ⟨0, _⟩ => show win0_1.index t (0 : Fin 3) * 1 + 1 * 0 = b.val; rw [e0, hb]; omega
  | ⟨1, _⟩ => show win0_1.index t (1 : Fin 3) * 256 + 1 * ch.val = ch.val; rw [e1]; omega
  | ⟨2, _⟩ => show win0_1.index t (2 : Fin 3) * 12 + 1 * r.val = r.val; rw [e2]; omega

/-- The `v` block at point `t` is batch entry `t`'s slab of its array. -/
private theorem blk2_apply (c : Dev nD) (t : Fin cfg0.N) (b : Fin 16) (hb : b.val = t.val) (ch : Fin 256) (r : Fin 12) :
    (iblk m c 2 t : Vec Ideal S1x256x12 .f32) (ix3 (0 : Fin 1) ch r) = V m c main_v4 (ix3 b ch r) := by
  obtain ⟨-, -, -, -, -, -, e0, e1, e2, -⟩ := idx_facts t
  unfold iblk
  rw [View.read_apply]
  show V m c main_v4 _ = V m c main_v4 _
  congr 1
  funext a
  apply Fin.ext
  match a with
  | ⟨0, _⟩ => show win0_2.index t (0 : Fin 3) * 1 + 1 * 0 = b.val; rw [e0, hb]; omega
  | ⟨1, _⟩ => show win0_2.index t (1 : Fin 3) * 256 + 1 * ch.val = ch.val; rw [e1]; omega
  | ⟨2, _⟩ => show win0_2.index t (2 : Fin 3) * 12 + 1 * r.val = r.val; rw [e2]; omega

/-- The shift block at point `t` is batch entry `t`'s slab of its array. -/
private theorem blk3_apply (c : Dev nD) (t : Fin cfg0.N) (b : Fin 16) (hb : b.val = t.val) (ch : Fin 256) :
    (iblk m c 3 t : Vec Ideal S1x256x1 .f32) (ix3 (0 : Fin 1) ch (0 : Fin 1)) = V m c main_v6 (ix3 b ch (0 : Fin 1)) := by
  obtain ⟨-, -, -, -, -, -, -, -, -, e0, e1, e2, -⟩ := idx_facts t
  unfold iblk
  rw [View.read_apply]
  show V m c main_v6 _ = V m c main_v6 _
  congr 1
  funext a
  apply Fin.ext
  match a with
  | ⟨0, _⟩ => show win0_3.index t (0 : Fin 3) * 1 + 1 * 0 = b.val; rw [e0, hb]; omega
  | ⟨1, _⟩ => show win0_3.index t (1 : Fin 3) * 256 + 1 * ch.val = ch.val; rw [e1]; omega
  | ⟨2, _⟩ => show win0_3.index t (2 : Fin 3) * 1 + 1 * 0 = 0; rw [e2]

/-- The body's value at a block index `j` is `regionOut` of the arrays at the array index `i` under it, when the four
    loaded blocks are batch entry `b`'s slabs of the arrays and `i` is `j` moved to batch entry `b`. -/
private theorem point_eq (x0 : Vec Ideal S1x256x4096 .f32) (x1 x2 : Vec Ideal S1x256x12 .f32) (x3 : Vec Ideal S1x256x1 .f32)
    (A0 : S16x256x4096.Idx → EReal) (A1 A2 : S16x256x12.Idx → EReal) (A3 : S16x256x1.Idx → EReal) (b : Fin 16)
    (h0 : ∀ (ch : Fin 256) (n : Fin 4096), x0 (ix3 (0 : Fin 1) ch n) = A0 (ix3 b ch n))
    (h1 : ∀ (ch : Fin 256) (r : Fin 12), x1 (ix3 (0 : Fin 1) ch r) = A1 (ix3 b ch r))
    (h2 : ∀ (ch : Fin 256) (r : Fin 12), x2 (ix3 (0 : Fin 1) ch r) = A2 (ix3 b ch r))
    (h3 : ∀ ch : Fin 256, x3 (ix3 (0 : Fin 1) ch (0 : Fin 1)) = A3 (ix3 b ch (0 : Fin 1)))
    (j : S1x256x4096.Idx) (i : S16x256x4096.Idx)
    (hi0 : (i 0).val = b.val) (hi1 : (i 1).val = (j 1).val) (hi2 : (i 2).val = (j 2).val) :
    k0_pay1 (k0_pay2 x0 x1 x2 x3) j = regionOut A0 A1 A2 A3 i := by
  obtain ⟨z, ch, n, rfl⟩ : ∃ (z : Fin 1) (ch : Fin 256) (n : Fin 4096), j = ix3 z ch n := ⟨j 0, j 1, j 2, eq_ix3 j⟩
  obtain ⟨b', ch', n', rfl⟩ : ∃ (b' : Fin 16) (ch' : Fin 256) (n' : Fin 4096), i = ix3 b' ch' n' := ⟨i 0, i 1, i 2, eq_ix3 i⟩
  obtain rfl : b' = b := Fin.ext hi0
  obtain rfl : ch' = ch := Fin.ext hi1
  obtain rfl : n' = n := Fin.ext hi2
  obtain rfl : z = 0 := Subsingleton.elim z 0
  rw [Cert.KernelIdeal.Body.body_eq]
  unfold regionOut
  show out _ _ _ _ ch' n' = out (fun c n => A0 (ix3 b' c n)) (fun c r => A1 (ix3 b' c r)) (fun c r => A2 (ix3 b' c r))
    (fun c => A3 (ix3 b' c (0 : Fin 1))) ch' n'
  rw [show (fun c n => x0 (ix3 (0 : Fin 1) c n)) = fun c n => A0 (ix3 b' c n) from funext fun c => funext fun n => h0 c n,
    show (fun c r => x1 (ix3 (0 : Fin 1) c r)) = fun c r => A1 (ix3 b' c r) from funext fun c => funext fun r => h1 c r,
    show (fun c r => x2 (ix3 (0 : Fin 1) c r)) = fun c r => A2 (ix3 b' c r) from funext fun c => funext fun r => h2 c r,
    show (fun c => x3 (ix3 (0 : Fin 1) c (0 : Fin 1))) = fun c => A3 (ix3 b' c (0 : Fin 1)) from funext fun c => h3 c]

/-- What point `t` writes back is block `t` of `regionOut` of the four arrays as the region finds them. -/
private theorem flushed_eq (c : Dev nD) (t : Fin cfg0.N) :
    (dats m 0 c).flushed 4 t = ((cfg0.win 4).blk t).view.read (Elt Ideal)
      (regionOut (V m c main_v0) (V m c main_v2) (V m c main_v4) (V m c main_v6)) := by
  show (cfg0.win 4).cut (grid0.coords t) ((dats m 0 c).after 4 t) = _
  rw [after0_4]
  unfold out0_4
  rw [View.canon_unit_zero hz]
  simp only [View.ld_unit_zero (S := S1x256x4096) hz, View.ld_unit_zero (S := S1x256x12) hz,
    View.ld_unit_zero (S := S1x256x1) hz]
  obtain ⟨-, -, -, -, -, -, -, -, -, -, -, -, e0, e1, e2⟩ := idx_facts t
  have ht : t.val < 16 := lt_of_lt_of_eq t.isLt N_0
  funext j
  show k0_pay1 (k0_pay2 (iblk m c 0 t) (iblk m c 1 t) (iblk m c 2 t) (iblk m c 3 t)) j
    = regionOut (V m c main_v0) (V m c main_v2) (V m c main_v4) (V m c main_v6) (((cfg0.win 4).blk t).view.emb j)
  refine point_eq (iblk m c 0 t) (iblk m c 1 t) (iblk m c 2 t) (iblk m c 3 t)
    (V m c main_v0) (V m c main_v2) (V m c main_v4) (V m c main_v6) (⟨t.val, ht⟩ : Fin 16)
    (fun ch n => blk0_apply m c t (⟨t.val, ht⟩ : Fin 16) rfl ch n) (fun ch r => blk1_apply m c t (⟨t.val, ht⟩ : Fin 16) rfl ch r)
    (fun ch r => blk2_apply m c t (⟨t.val, ht⟩ : Fin 16) rfl ch r) (fun ch => blk3_apply m c t (⟨t.val, ht⟩ : Fin 16) rfl ch)
    j (((cfg0.win 4).blk t).view.emb j) ?_ ?_ ?_
  · show win0_4.index t (0 : Fin 3) * 1 + 1 * (j 0).val = t.val
    have hj : (j 0).val < 1 := (j 0).isLt
    rw [e0]; omega
  · show win0_4.index t (1 : Fin 3) * 256 + 1 * (j 1).val = (j 1).val
    rw [e1]; omega
  · show win0_4.index t (2 : Fin 3) * 4096 + 1 * (j 2).val = (j 2).val
    rw [e2]; omega

/-- An index of the output array is in point `t`'s block iff each coordinate is in the block's range on its axis. -/
private theorem mem_blk (t : Fin cfg0.N) (i : S16x256x4096.Idx) :
    i ∈ ((cfg0.win 4).blk t).view.set ↔ ∀ a : Fin 3, win0_4.index t a * S1x256x4096.size a ≤ (i a).val
      ∧ (i a).val < win0_4.index t a * S1x256x4096.size a + S1x256x4096.size a := by
  show i ∈ ((View.whole main_v7).slice (win0_4.rect t)).set ↔ _
  rw [View.set_slice_whole, Rect.mem_set_unit]
  exact Iff.rfl

/-- Every index of the output array is in the block of the point its batch coordinate names. -/
private theorem cover (i : S16x256x4096.Idx) :
    ∃ t : Fin cfg0.N, (cfg0.win 4).flush t = true ∧ i ∈ ((cfg0.win 4).blk t).view.set := by
  have hi0 : (i 0).val < 16 := (i 0).isLt
  have hi1 : (i 1).val < 256 := (i 1).isLt
  have hi2 : (i 2).val < 4096 := (i 2).isLt
  obtain ⟨t, ht⟩ : ∃ t : Fin cfg0.N, t.val = (i 0).val := ⟨⟨(i 0).val, lt_of_lt_of_eq hi0 N_0.symm⟩, rfl⟩
  refine ⟨t, flush0_4 t, ?_⟩
  obtain ⟨-, -, -, -, -, -, -, -, -, -, -, -, e0, e1, e2⟩ := idx_facts t
  rw [mem_blk]
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 256 ≤ (i 1).val ∧ (i 1).val < win0_4.index t (1 : Fin 3) * 256 + 256
    rw [e1]; omega
  | ⟨2, _⟩ =>
    show win0_4.index t (2 : Fin 3) * 4096 ≤ (i 2).val ∧ (i 2).val < win0_4.index t (2 : Fin 3) * 4096 + 4096
    rw [e2]; omega

/-- The output window's array after the region. -/
theorem final4 (c : Dev nD) :
    (dats m 0 c).arrAt 4 cfg0.N = regionOut (V m c main_v0) (V m c main_v2) (V m c main_v4) (V m c main_v6) := by
  exact (dats m 0 c).arrAt_eq_of_cover 4 (regionOut (V m c main_v0) (V m c main_v2) (V m c main_v4) (V m c main_v6))
    (fun t _ => flushed_eq m c t) cover

/-- `regionOut` of four arrays that are the arguments' re-laid pieces, with its positions unflattened, is `result`. -/
private theorem result_read (A0 : S16x256x4096.Idx → EReal) (A1 A2 : S16x256x12.Idx → EReal) (A3 : S16x256x1.Idx → EReal)
    (X : SX.Idx → EReal) (P : SP.Idx → EReal)
    (h0 : ∀ (b : Fin 16) (ch : Fin 256) (n : Fin 4096), A0 (ix3 b ch n) = xOf X b ch n)
    (h1 : ∀ (b : Fin 16) (ch : Fin 256) (r : Fin 12), A1 (ix3 b ch r) = uOf P b ch r)
    (h2 : ∀ (b : Fin 16) (ch : Fin 256) (r : Fin 12), A2 (ix3 b ch r) = vOf P b ch r)
    (h3 : ∀ (b : Fin 16) (ch : Fin 256), A3 (ix3 b ch (0 : Fin 1)) = sOf P b ch) :
    shapeCast S16x256x64x64 (regionOut A0 A1 A2 A3) shapeCasts_S16x256x4096_S16x256x64x64 = result X P := by
  funext i
  obtain ⟨b, ch, h, w, rfl⟩ : ∃ (b : Fin 16) (ch : Fin 256) (h w : Fin 64), i = ix4 b ch h w :=
    ⟨i 0, i 1, i 2, i 3, eq_ix4 i⟩
  rw [result_ix4]
  -- position (h, w) of the 64 × 64 is position 64 · h + w of the 4096
  refine (shapeCast_apply _ _ (ix4 b ch h w)
    (ix3 b ch (⟨64 * h.val + w.val, by have := h.isLt; have := w.isLt; omega⟩ : Fin 4096)) ?_).trans ?_
  · show (S16x256x4096.rowMajor _).val = (S16x256x64x64.rowMajor _).val
    rw [Shape.rowMajor_val_three, Shape.rowMajor_val_four]
    show (b.val * 256 + ch.val) * 4096 + (64 * h.val + w.val) = ((b.val * 256 + ch.val) * 64 + h.val) * 64 + w.val
    omega
  · unfold regionOut resultAt
    show out (fun c n => A0 (ix3 b c n)) (fun c r => A1 (ix3 b c r)) (fun c r => A2 (ix3 b c r))
      (fun c => A3 (ix3 b c (0 : Fin 1))) ch _ = out (xOf X b) (uOf P b) (vOf P b) (sOf P b) ch _
    rw [show (fun c n => A0 (ix3 b c n)) = xOf X b from funext fun c => funext fun n => h0 b c n,
      show (fun c r => A1 (ix3 b c r)) = uOf P b from funext fun c => funext fun r => h1 b c r,
      show (fun c r => A2 (ix3 b c r)) = vOf P b from funext fun c => funext fun r => h2 b c r,
      show (fun c => A3 (ix3 b c (0 : Fin 1))) = sOf P b from funext fun c => h3 b c]

/-- The program's result array: the output array with its positions unflattened, read at the arguments. -/
private theorem tail_eq (c : Dev nD) :
    Pipeline.afterTail₀ cfgs (dats m) 0 (V0 m) [hostOps1] c main_v8
      = result (m ((c.tc : Thread nD τ).loc main_arg0)) (m ((c.tc : Thread nD τ).loc main_arg1)) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7)
      = regionOut (V m c main_v0) (V m c main_v2) (V m c main_v4) (V m c main_v6) :=
    (Pipeline.withArrays_arr spec0 launch0.win.arr_inj c _ _ 4).trans (final4 m c)
  show shapeCast S16x256x64x64 (Pipeline.withArrays (cfgs 0).spec c (V0 m c) (fun w => (dats m 0 c).arrAt w (cfgs 0).N)
    (Proc.devRef .tc main_v7)) shapeCasts_S16x256x4096_S16x256x64x64 = _
  rw [e]
  exact result_read _ _ _ _ _ _ (Arrays.entry_x m c) (Arrays.entry_u m c) (Arrays.entry_v m c) (Arrays.entry_s m c)

/-- Every weakly fair execution of the idealized kernel program ends with its result at `result` of the arguments,
    the arguments unchanged. -/
theorem run : θ_run defs (onTc (τ := τ) (main (F := Ideal))) ⟨m, fun _ => 0, ρ⟩ fun r => ∀ c : Dev nD,
      r.2.mem ((c.tc : Thread nD τ).loc main_v8)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · exact ((h c).2 main_v8 (Pipeline.mem_restRefs_of main_v8 (by decide) (by decide))).trans (tail_eq m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.KValue

end
-- ==== Proof.RefRun.lean ====
/-
  The reference program's run read back: its @main — the group statistics (the variance through jax's outlined
  `_var` and `_where`), the normalization, the two contractions, the residual and the shift — is a straight line of host
  operations, so every weakly fair execution ends with the result buffer at their composed term of the two arguments.
-/
import proofs.«115724_j807453851999_1_alg».proof.Proof.Gen.ReferenceIdeal
import Idealize.ShloMosaic.Lib.StableHlo.Run

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

/-- The activations viewed by groups: 16 batch entries × 32 groups × 32768 entries. -/
def grouped (X : FVec F S16x256x64x64 .f32) : FVec F S16x32x32768 .f32 :=
  shapeCast S16x32x32768 X shapeCasts_S16x256x64x64_S16x32x32768

/-- The sum over each group (from the host's zero). -/
def groupSum (G : FVec F S16x32x32768 .f32) : FVec F S16x32 .f32 :=
  Host.reduceAdd G (constant S_ .f32 0x00000000#32) reducesTo_S16x32x32768_S16x32_d2 h_S_

/-- Each group's mean: its sum divided by the count 32768. -/
def groupMean (G : FVec F S16x32x32768 .f32) : FVec F S16x32x1 .f32 :=
  Host.divf (broadcastInDim S16x32x1 ![0, 1] bcast_S16x32_S16x32x1_0_1 (groupSum G))
    (broadcastInDim S16x32x1 ![] bcast_S_S16x32x1 (constant S_ .f32 0x47000000#32))

/-- The divisor of the variance: the count less the (zero) degrees-of-freedom correction. -/
def varCount : FVec F S_ .f32 := subf (constant S_ .f32 0x47000000#32) (sitofp .f32 (constantI S_ 32 0#32))

/-- The squared deviations from the group's mean. -/
def sqDev (G : FVec F S16x32x32768 .f32) : FVec F S16x32x32768 .f32 :=
  mulf (subf G (broadcastInDim S16x32x32768 ![0, 1, 2] bcast_S16x32x1_S16x32x32768_0_1_2 (groupMean G)))
    (subf G (broadcastInDim S16x32x32768 ![0, 1, 2] bcast_S16x32x1_S16x32x32768_0_1_2 (groupMean G)))

/-- Each group's variance as jax's `_var` computes it: the mean squared deviation where the divisor is positive, else
    the NaN pattern. -/
def groupVar (G : FVec F S16x32x32768 .f32) : FVec F S16x32x1 .f32 :=
  select (broadcastInDim S16x32x1 ![] bcast_S_S16x32x1 (cmpf .ogt (varCount (F := F)) (constant S_ .f32 0x00000000#32)))
    (Host.divf (broadcastInDim S16x32x1 ![0, 1] bcast_S16x32_S16x32x1_0_1 (groupSum (sqDev G)))
      (broadcastInDim S16x32x1 ![] bcast_S_S16x32x1 (varCount (F := F))))
    (broadcastInDim S16x32x1 ![] bcast_S_S16x32x1 (id (constant S_ .f32 0x7FC00000#32)))

/-- The normalized activations, by groups. -/
def normGrouped (G : FVec F S16x32x32768 .f32) : FVec F S16x32x32768 .f32 :=
  mulf (subf G (broadcastInDim S16x32x32768 ![0, 1, 2] bcast_S16x32x1_S16x32x32768_0_1_2 (groupMean G)))
    (broadcastInDim S16x32x32768 ![0, 1, 2] bcast_S16x32x1_S16x32x32768_0_1_2
      (Host.rsqrt (addf (groupVar G) (broadcastInDim S16x32x1 ![] bcast_S_S16x32x1 (constant S_ .f32 0x358637BD#32)))))

/-- The normalized activations as 16 × 256 channels × 4096 positions. -/
def refNorm (X : FVec F S16x256x64x64 .f32) : FVec F S16x256x4096 .f32 :=
  shapeCast S16x256x4096
    (shapeCast S16x256x64x64 (normGrouped (grouped X)) shapeCasts_S16x32x32768_S16x256x64x64)
    shapeCasts_S16x256x64x64_S16x256x4096

/-- The parameters' first stretch as `u`: 16 × 256 × 12. -/
def refU (P : FVec F S16x6400 .f32) : FVec F S16x256x12 .f32 :=
  shapeCast S16x256x12 (extractStridedSlice S16x3072 ![0, 0] P slices_S16x6400_S16x3072_0_0) shapeCasts_S16x3072_S16x256x12
/-- The second stretch as `v`. -/
def refV (P : FVec F S16x6400 .f32) : FVec F S16x256x12 .f32 :=
  shapeCast S16x256x12 (extractStridedSlice S16x3072 ![0, 3072] P slices_S16x6400_S16x3072_0_3072) shapeCasts_S16x3072_S16x256x12
/-- The last stretch as the shift: 16 × 256 × 1 × 1. -/
def refShift (P : FVec F S16x6400 .f32) : FVec F S16x256x1x1 .f32 :=
  shapeCast S16x256x1x1 (extractStridedSlice S16x256 ![0, 6144] P slices_S16x6400_S16x256_0_6144) shapeCasts_S16x256_S16x256x1x1

/-- From the normalized activations `N`: `(N + u · (vᵀ · N))` unflattened, plus the shift. -/
def refOut (N : FVec F S16x256x4096 .f32) (P : FVec F S16x6400 .f32) : FVec F S16x256x64x64 .f32 :=
  addf
    (shapeCast S16x256x64x64
      (addf N (Host.dotGeneral dot_S16x256x12_S16x12x4096_S16x256x4096_2_1_1_2_0_0 none (refU P)
        (Host.dotGeneral dot_S16x256x12_S16x256x4096_S16x12x4096_1_1_2_2_0_0 none (refV P) N)))
      shapeCasts_S16x256x4096_S16x256x64x64)
    (broadcastInDim S16x256x64x64 ![0, 1, 2, 3] bcast_S16x256x1x1_S16x256x64x64_0_1_2_3 (refShift P))

/-- The reference's result as a term of its two arguments. -/
def refTerm (X : FVec F S16x256x64x64 .f32) (P : FVec F S16x6400 .f32) : FVec F S16x256x64x64 .f32 :=
  refOut (refNorm X) P

/-- @main's 53 operations in order, the two calls unfolded at their sites: @main's first eight (the grouping, the
    group sums and means, the integer zero); `_var`'s twenty over the buffers of its call (its own sums and means, the
    squared deviations and their sums, the divisor `32768 - 0` and its sign test, the NaN pattern); `_where`'s three over
    the buffers of the nested call (the pattern converted to its own type, broadcast, the select, whose result is @main's
    `%5`); then @main's last twenty-two (the normalization, the three stretches of the parameters, the two contractions,
    the residual sum and the shift). -/
private abbrev ops : List (HloOp τ sig (Elt F)) :=
  [
    StableHlo.reshape main_arg0 main_v0 rfl shapeCasts_S16x256x64x64_S16x32x32768,
    StableHlo.nullary main_cst (constant S_ .f32 0x00000000#32),
    StableHlo.binary main_v0 main_cst main_v1 ((fun x v => Host.reduceAdd x v reducesTo_S16x32x32768_S16x32_d2 h_S_) : (⟨S16x32x32768, .f32⟩ : BufTy).Contents (Elt F) → (⟨S_, .f32⟩ : BufTy).Contents (Elt F) → (⟨S16x32, .f32⟩ : BufTy).Contents (Elt F)),
    StableHlo.unary main_v1 main_v2 (broadcastInDim S16x32x1 ![0, 1] bcast_S16x32_S16x32x1_0_1 : (⟨S16x32, .f32⟩ : BufTy).Contents (Elt F) → (⟨S16x32x1, .f32⟩ : BufTy).Contents (Elt F)),
    StableHlo.nullary main_cst_0 (constant S_ .f32 0x47000000#32),
    StableHlo.unary main_cst_0 main_v3 (broadcastInDim S16x32x1 ![] bcast_S_S16x32x1 : (⟨S_, .f32⟩ : BufTy).Contents (Elt F) → (⟨S16x32x1, .f32⟩ : BufTy).Contents (Elt F)),
    StableHlo.binary main_v2 main_v3 main_v4 (Host.divf : (⟨S16x32x1, .f32⟩ : BufTy).Contents (Elt F) → (⟨S16x32x1, .f32⟩ : BufTy).Contents (Elt F) → (⟨S16x32x1, .f32⟩ : BufTy).Contents (Elt F)),
    StableHlo.nullary main_c (constantI S_ 32 0#32),
    StableHlo.TRef.nullary main_call0.cst (constant S_ .f32 0x00000000#32),
    StableHlo.TRef.binary (.of main_v0) main_call0.cst main_call0.v0 (fun x v => Host.reduceAdd x v reducesTo_S16x32x32768_S16x32_d2 h_S_),
    StableHlo.TRef.unary main_call0.v0 main_call0.v1 (broadcastInDim S16x32x1 ![0, 1] bcast_S16x32_S16x32x1_0_1),
    StableHlo.TRef.nullary main_call0.cst_0 (constant S_ .f32 0x47000000#32),
    StableHlo.TRef.unary main_call0.cst_0 main_call0.v2 (broadcastInDim S16x32x1 ![] bcast_S_S16x32x1),
    StableHlo.TRef.binary main_call0.v1 main_call0.v2 main_call0.v3 Host.divf,
    StableHlo.TRef.unary main_call0.v3 main_call0.v4 (broadcastInDim S16x32x32768 ![0, 1, 2] bcast_S16x32x1_S16x32x32768_0_1_2),
    StableHlo.TRef.binary (.of main_v0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16x32x32768_S16x32_d2 h_S_),
    StableHlo.TRef.unary main_call0.v9 main_call0.v10 (broadcastInDim S16x32x1 ![0, 1] bcast_S16x32_S16x32x1_0_1),
    StableHlo.TRef.unary main_call0.v8 main_call0.v11 (broadcastInDim S16x32x1 ![] bcast_S_S16x32x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16x32x1 ![] bcast_S_S16x32x1),
    StableHlo.TRef.ternary main_call0.v13 main_call0.v12 main_call0.call0.v1 main_call0.call0.v2 (fun p a b => select (broadcastInDim S16x32x1 ![] bcast_S_S16x32x1 p) a b),
    StableHlo.unary main_v4 main_v6 (broadcastInDim S16x32x32768 ![0, 1, 2] bcast_S16x32x1_S16x32x32768_0_1_2 : (⟨S16x32x1, .f32⟩ : BufTy).Contents (Elt F) → (⟨S16x32x32768, .f32⟩ : BufTy).Contents (Elt F)),
    StableHlo.binary main_v0 main_v6 main_v7 (subf : (⟨S16x32x32768, .f32⟩ : BufTy).Contents (Elt F) → (⟨S16x32x32768, .f32⟩ : BufTy).Contents (Elt F) → (⟨S16x32x32768, .f32⟩ : BufTy).Contents (Elt F)),
    StableHlo.nullary main_cst_1 (constant S_ .f32 0x358637BD#32),
    StableHlo.unary main_cst_1 main_v8 (broadcastInDim S16x32x1 ![] bcast_S_S16x32x1 : (⟨S_, .f32⟩ : BufTy).Contents (Elt F) → (⟨S16x32x1, .f32⟩ : BufTy).Contents (Elt F)),
    StableHlo.binary main_v5 main_v8 main_v9 (addf : (⟨S16x32x1, .f32⟩ : BufTy).Contents (Elt F) → (⟨S16x32x1, .f32⟩ : BufTy).Contents (Elt F) → (⟨S16x32x1, .f32⟩ : BufTy).Contents (Elt F)),
    StableHlo.unary main_v9 main_v10 (Host.rsqrt : (⟨S16x32x1, .f32⟩ : BufTy).Contents (Elt F) → (⟨S16x32x1, .f32⟩ : BufTy).Contents (Elt F)),
    StableHlo.unary main_v10 main_v11 (broadcastInDim S16x32x32768 ![0, 1, 2] bcast_S16x32x1_S16x32x32768_0_1_2 : (⟨S16x32x1, .f32⟩ : BufTy).Contents (Elt F) → (⟨S16x32x32768, .f32⟩ : BufTy).Contents (Elt F)),
    StableHlo.binary main_v7 main_v11 main_v12 (mulf : (⟨S16x32x32768, .f32⟩ : BufTy).Contents (Elt F) → (⟨S16x32x32768, .f32⟩ : BufTy).Contents (Elt F) → (⟨S16x32x32768, .f32⟩ : BufTy).Contents (Elt F)),
    StableHlo.reshape main_v12 main_v13 rfl shapeCasts_S16x32x32768_S16x256x64x64,
    StableHlo.unary main_arg1 main_v14 ((extractStridedSlice S16x3072 ![0, 0] · slices_S16x6400_S16x3072_0_0) : (⟨S16x6400, .f32⟩ : BufTy).Contents (Elt F) → (⟨S16x3072, .f32⟩ : BufTy).Contents (Elt F)),
    StableHlo.reshape main_v14 main_v15 rfl shapeCasts_S16x3072_S16x256x12,
    StableHlo.unary main_arg1 main_v16 ((extractStridedSlice S16x3072 ![0, 3072] · slices_S16x6400_S16x3072_0_3072) : (⟨S16x6400, .f32⟩ : BufTy).Contents (Elt F) → (⟨S16x3072, .f32⟩ : BufTy).Contents (Elt F)),
    StableHlo.reshape main_v16 main_v17 rfl shapeCasts_S16x3072_S16x256x12,
    StableHlo.unary main_arg1 main_v18 ((extractStridedSlice S16x256 ![0, 6144] · slices_S16x6400_S16x256_0_6144) : (⟨S16x6400, .f32⟩ : BufTy).Contents (Elt F) → (⟨S16x256, .f32⟩ : BufTy).Contents (Elt F)),
    StableHlo.reshape main_v18 main_v19 rfl shapeCasts_S16x256_S16x256x1x1,
    StableHlo.reshape main_v13 main_v20 rfl shapeCasts_S16x256x64x64_S16x256x4096,
    StableHlo.binary main_v17 main_v20 main_v21 ((fun l r => Host.dotGeneral dot_S16x256x12_S16x256x4096_S16x12x4096_1_1_2_2_0_0 none l r) : (⟨S16x256x12, .f32⟩ : BufTy).Contents (Elt F) → (⟨S16x256x4096, .f32⟩ : BufTy).Contents (Elt F) → (⟨S16x12x4096, .f32⟩ : BufTy).Contents (Elt F)),
    StableHlo.binary main_v15 main_v21 main_v22 ((fun l r => Host.dotGeneral dot_S16x256x12_S16x12x4096_S16x256x4096_2_1_1_2_0_0 none l r) : (⟨S16x256x12, .f32⟩ : BufTy).Contents (Elt F) → (⟨S16x12x4096, .f32⟩ : BufTy).Contents (Elt F) → (⟨S16x256x4096, .f32⟩ : BufTy).Contents (Elt F)),
    StableHlo.binary main_v20 main_v22 main_v23 (addf : (⟨S16x256x4096, .f32⟩ : BufTy).Contents (Elt F) → (⟨S16x256x4096, .f32⟩ : BufTy).Contents (Elt F) → (⟨S16x256x4096, .f32⟩ : BufTy).Contents (Elt F)),
    StableHlo.reshape main_v23 main_v24 rfl shapeCasts_S16x256x4096_S16x256x64x64,
    StableHlo.unary main_v19 main_v25 (broadcastInDim S16x256x64x64 ![0, 1, 2, 3] bcast_S16x256x1x1_S16x256x64x64_0_1_2_3 : (⟨S16x256x1x1, .f32⟩ : BufTy).Contents (Elt F) → (⟨S16x256x64x64, .f32⟩ : BufTy).Contents (Elt F)),
    StableHlo.binary main_v24 main_v25 main_v26 (addf : (⟨S16x256x64x64, .f32⟩ : BufTy).Contents (Elt F) → (⟨S16x256x64x64, .f32⟩ : BufTy).Contents (Elt F) → (⟨S16x256x64x64, .f32⟩ : BufTy).Contents (Elt F)) ]

set_option maxRecDepth 2048 in
/-- @main is that straight line: the two functions' definitions unfolded at their calls, both sides are one chain of
    steps once sequencing is reassociated. -/
private theorem main_eq (c : Dev nD) : main (F := F) c = seq ops := by
  simp only [main, fn_var.body, fn_where.body, seq, bind_assoc, pure_bind]

private theorem scopedRefs_eq : (Finset.univ.filter fun b : Ref sig .tc => b.isScoped) = ∅ := by decide
private theorem scopedSems_eq : (Finset.univ.filter fun sm : SemLoc sig => sm.isScoped .tc) = ∅ := by decide

private theorem ops_sub : (ops : List (HloOp τ sig (Elt F))).Forall fun op => op.bufs ⊆ tcRefs τ sig :=
  ⟨
    reshape_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., reshape_bufs_sub .., unary_bufs_sub .., reshape_bufs_sub ..,
    unary_bufs_sub .., reshape_bufs_sub .., unary_bufs_sub .., reshape_bufs_sub .., reshape_bufs_sub .., binary_bufs_sub ..,
    binary_bufs_sub .., binary_bufs_sub .., reshape_bufs_sub .., unary_bufs_sub .., binary_bufs_sub ..⟩

/-- The fold of the operations' results, read at the result buffer from any contents: each operation's result at its
    own buffer is its function of its operands' contents, at any other buffer what was there; composed, that is
    `refTerm` of the two arguments' contents, stage by stage. -/
private theorem out_eq (V : Valuation τ sig (Elt F)) :
    after ops V (main_v26 : DevRef τ sig) = refTerm (V (main_arg0 : DevRef τ sig)) (V (main_arg1 : DevRef τ sig)) := by
  after_results_simp
  rfl

/-- The first argument's buffer is written by no operation. -/
private theorem arg0_eq (V : Valuation τ sig (Elt F)) :
    after ops V (main_arg0 : DevRef τ sig) = V (main_arg0 : DevRef τ sig) := by
  after_results_simp

/-- The second argument's buffer is written by no operation. -/
private theorem arg1_eq (V : Valuation τ sig (Elt F)) :
    after ops V (main_arg1 : DevRef τ sig) = V (main_arg1 : DevRef τ sig) := by
  after_results_simp

/-- On every device, for any float values, from any memory with zero counters: every weakly fair execution of the
    reference's @main terminates with its result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v26).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RValue

end
-- ==== Proof.Stats.lean ====
/-
  The two ways of taking a group's mean and variance agree on finite entries.

  For reals `a₀ … a_{N-1}`, `N = 32768`, with `μ = (∑ a) / N`:  `(∑ (a − μ)²) / N = (∑ a²) / N − μ²`; and dividing by `N`
  is multiplying by `2⁻¹⁵`. On the extended reals the identity needs every `a k` finite (it uses distributivity and
  cancellation), which is where the precondition enters the certificate.
-/
import proofs.«115724_j807453851999_1_alg».proof.Proof.Spec

noncomputable section

open scoped BigOperators

namespace Cert.GroupNormMix

open Idealize.ShloMosaic

/-- The word `0x38000000` denotes `2⁻¹⁵ = 1 / 32768`. -/
theorem invN_eq : invN = ((1 / 32768 : ℝ) : EReal) := by
  unfold invN
  simp [Ideal.ofBits, Ideal.ieee, -EReal.coe_mul]; norm_num

/-- The word `0x47000000` denotes `32768`. -/
theorem count_eq : Ideal.ofBits .f32 0x47000000#32 = ((32768 : ℝ) : EReal) := by
  simp [Ideal.ofBits, Ideal.ieee, -EReal.coe_mul]; norm_num

/-- The coercion of reals into the extended reals commutes with finite sums. -/
private theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The host's mean — (a zero plus the sum) divided by the count — is the sum times `2⁻¹⁵`. -/
theorem mean_host (a : Fin 32768 → EReal) (ha : ∀ k, ∃ r : ℝ, a k = (r : EReal)) (z d : EReal) (hz : z = 0)
    (hd : d = ((32768 : ℝ) : EReal)) : Ideal.div (z + ∑ k, a k) d = (∑ k, a k) * invN := by
  subst hz hd
  -- dividing by the real 32768 is multiplying by its reciprocal
  rw [zero_add, Ideal.div_coe (by norm_num), invN_eq]

/-- The host's variance — the mean of the squared deviations from the mean — is the mean of the squares less the
    square of the mean. -/
theorem var_host (a : Fin 32768 → EReal) (ha : ∀ k, ∃ r : ℝ, a k = (r : EReal)) (z d : EReal) (hz : z = 0)
    (hd : d = ((32768 : ℝ) : EReal)) :
    Ideal.div (z + ∑ k, (a k - (∑ k, a k) * invN) * (a k - (∑ k, a k) * invN)) d
      = (∑ k, a k * a k) * invN - ((∑ k, a k) * invN) * ((∑ k, a k) * invN) := by
  subst hz hd
  -- every entry is the coercion of a real `r k`
  choose r hr using ha
  have ha' : a = fun k => (r k : EReal) := funext hr
  subst ha'
  rw [zero_add, Ideal.div_coe (by norm_num), invN_eq]
  -- both sides are coercions of reals
  simp only [coe_sum, ← EReal.coe_mul, ← EReal.coe_sub]
  congr 1
  -- the real identity: with μ = (∑ r) / N,  ∑ (r − μ)² = ∑ r² − 2 μ ∑ r + N μ²  and  ∑ r = N μ
  set μ : ℝ := (∑ k, r k) * (1 / 32768) with hμ
  have h1 : ∑ k, (r k - μ) * (r k - μ) = (∑ k, r k * r k) - 2 * μ * (∑ k, r k) + 32768 * (μ * μ) := by
    have : ∀ k, (r k - μ) * (r k - μ) = r k * r k - 2 * μ * r k + μ * μ := fun k => by ring
    simp only [this, Finset.sum_add_distrib, Finset.sum_sub_distrib, ← Finset.mul_sum, Finset.sum_const,
      Finset.card_univ, Fintype.card_fin, nsmul_eq_mul]
    push_cast; ring
  rw [h1]
  have h2 : (∑ k, r k) = 32768 * μ := by rw [hμ]; ring
  rw [h2]; ring

/-- The count is above zero: the host's guard on the divisor takes the quotient's branch. -/
theorem count_gt (d z : EReal) (hd : d = ((32768 : ℝ) : EReal)) (hz : z = 0) : Ideal.cmp .ogt d z = 1#1 := by
  subst hd hz
  have h : (0 : EReal) < ((32768 : ℝ) : EReal) := by exact_mod_cast (by norm_num : (0:ℝ) < 32768)
  simp [Ideal.cmp, h]

end Cert.GroupNormMix

end
-- ==== Proof.RefNorm.lean ====
/-
  The reference's normalized activations, read at batch entry `b`, channel `c`, position `n`, are the slab function
  `GroupNormMix.xn` of batch entry `b`'s slab — where the activations are finite: the reference's variance (the mean
  squared deviation) meets the kernel's (mean of squares less squared mean) only there.
-/
import proofs.«115724_j807453851999_1_alg».proof.Proof.RefRun
import proofs.«115724_j807453851999_1_alg».proof.Proof.Spec
import proofs.«115724_j807453851999_1_alg».proof.Proof.Stats
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RNorm

open Idealize.ShloMosaic Idealize.ShloMosaic.ValueIdx Cert.ReferenceIdeal Cert.ReferenceIdeal.Gen Cert.ReferenceIdeal.RValue
open Cert.GroupNormMix

/-- The grouped view at batch b, group g, entry k is the slab's entry at channel 8g + k / 4096, position k % 4096. -/
private theorem grouped_apply (X : FVec Ideal S16x256x64x64 .f32) (b : Fin 16) (g : Fin 32) (k : Fin 32768) :
    grouped (F := Ideal) X (ix3 b g k) = xOf X b (gch g k) (gpos k) := by
  unfold grouped xOf
  refine shapeCast_apply X _ _ _ ?_
  rw [Shape.rowMajor_val_four, Shape.rowMajor_val_three]
  show ((b.val * 256 + (gch g k).val) * 64 + (gpos k).val / 64) * 64 + (gpos k).val % 64
      = (b.val * 32 + g.val) * 32768 + k.val
  have hg : (gch g k).val = 8 * g.val + k.val / 4096 := rfl
  have hp : (gpos k).val = k.val % 4096 := rfl
  rw [hg, hp]
  have := k.isLt
  omega

/-- The sum over a group from the host's zero. -/
private theorem groupSum_apply (G : FVec Ideal S16x32x32768 .f32) (b : Fin 16) (g : Fin 32) :
    groupSum (F := Ideal) G (ix2 b g) = Ideal.ofBits .f32 0x00000000#32 + ∑ k : Fin 32768, G (ix3 b g k) := by
  unfold groupSum
  rw [hostReduceAdd_apply]
  rw [Ideal.hostReduceAdd_single reducesTo_S16x32x32768_S16x32_d2 (by decide : S16x32x32768.Reduces [2] S16x32)]
  rw [constant_apply]
  refine congrArg (fun t => Ideal.ofBits .f32 0x00000000#32 + t) ?_
  refine Finset.sum_congr rfl fun k _ => congrArg G ?_
  funext a
  match a with
  | ⟨0, _⟩ => rfl
  | ⟨1, _⟩ => rfl
  | ⟨2, _⟩ => rfl

/-- A group's mean, as the host divides, read at the group's unit axis. -/
private theorem groupMean_eq (G : FVec Ideal S16x32x32768 .f32) (b : Fin 16) (g : Fin 32) (u : Fin 1) :
    groupMean (F := Ideal) G (ix3 b g u)
      = Ideal.div (Ideal.ofBits .f32 0x00000000#32 + ∑ k : Fin 32768, G (ix3 b g k)) (Ideal.ofBits .f32 0x47000000#32) := by
  unfold groupMean
  rw [hostDivf_apply, broadcastInDim_scalar_apply, constant_apply,
    broadcastInDim_apply _ _ _ _ (ix2 b g) (by
      intro a
      match a with
      | ⟨0, _⟩ => rfl
      | ⟨1, _⟩ => rfl),
    groupSum_apply]

/-- A per-group statistic spread over the group's entries reads the group's one value. -/
private theorem spread_apply (M : FVec Ideal S16x32x1 .f32) (b : Fin 16) (g : Fin 32) (k : Fin 32768) :
    broadcastInDim S16x32x32768 ![0, 1, 2] bcast_S16x32x1_S16x32x32768_0_1_2 M (ix3 b g k) = M (ix3 b g (0 : Fin 1)) :=
  broadcastInDim_apply _ _ _ _ (ix3 b g (0 : Fin 1)) (by
    intro a
    match a with
    | ⟨0, _⟩ => rfl
    | ⟨1, _⟩ => rfl
    | ⟨2, _⟩ => rfl)

/-- The squared deviation at an entry. -/
private theorem sqDev_apply (G : FVec Ideal S16x32x32768 .f32) (b : Fin 16) (g : Fin 32) (k : Fin 32768) :
    sqDev (F := Ideal) G (ix3 b g k)
      = (G (ix3 b g k) - groupMean (F := Ideal) G (ix3 b g (0 : Fin 1))) * (G (ix3 b g k) - groupMean (F := Ideal) G (ix3 b g (0 : Fin 1))) := by
  unfold sqDev
  rw [mulf_apply, subf_apply, spread_apply]

/-- The variance's divisor is the count 32768. -/
private theorem varCount_eq : varCount (F := Ideal) ix0 = ((32768 : ℝ) : EReal) := by
  unfold varCount
  rw [subf_apply, constant_apply, sitofp_apply, constantI_apply, count_eq]
  show ((32768 : ℝ) : EReal) - (((0#32 : BitVec 32).toInt : ℝ) : EReal) = _
  simp

/-- A group's variance, as the host takes it: the guard on the divisor passes, leaving the mean squared deviation. -/
private theorem groupVar_eq (G : FVec Ideal S16x32x32768 .f32) (b : Fin 16) (g : Fin 32) (u : Fin 1) :
    groupVar (F := Ideal) G (ix3 b g u)
      = Ideal.div (Ideal.ofBits .f32 0x00000000#32 + ∑ k : Fin 32768, sqDev (F := Ideal) G (ix3 b g k)) (varCount (F := Ideal) ix0) := by
  unfold groupVar
  rw [select_apply, broadcastInDim_scalar_apply, cmpf_apply, constant_apply, Ideal.cmpf_def,
    count_gt _ _ varCount_eq Ideal.ofBits_zero_f32, select_one,
    hostDivf_apply, broadcastInDim_scalar_apply,
    broadcastInDim_apply _ _ _ _ (ix2 b g) (by
      intro a
      match a with
      | ⟨0, _⟩ => rfl
      | ⟨1, _⟩ => rfl),
    groupSum_apply]

/-- The normalized grouped activations at an entry. -/
private theorem normGrouped_apply (G : FVec Ideal S16x32x32768 .f32) (b : Fin 16) (g : Fin 32) (k : Fin 32768) :
    normGrouped (F := Ideal) G (ix3 b g k)
      = (G (ix3 b g k) - groupMean (F := Ideal) G (ix3 b g (0 : Fin 1)))
          * Ideal.rsqrt (groupVar (F := Ideal) G (ix3 b g (0 : Fin 1)) + Ideal.ofBits .f32 0x358637BD#32) := by
  unfold normGrouped
  rw [mulf_apply, subf_apply, spread_apply, spread_apply]
  show _ * FloatOps.hostUnary .rsqrt (addf _ _ _) = _
  rw [Ideal.hostUnary_rsqrt_def, addf_apply, broadcastInDim_scalar_apply, constant_apply]

/-- The reference's normalized activations are `xn` of the batch entry's slab. -/
theorem refNorm_apply (X : FVec Ideal S16x256x64x64 .f32) (hX : ∀ i, ∃ r : ℝ, X i = (r : EReal))
    (b : Fin 16) (c : Fin 256) (n : Fin 4096) :
    refNorm (F := Ideal) X (ix3 b c n) = xn (xOf X b) c n := by
  have hc := c.isLt
  have hn := n.isLt
  -- entry k of group c / 8 sits at channel c, position n for k = (c % 8) · 4096 + n
  let kk : Fin 32768 := ⟨(c.val % 8) * 4096 + n.val, by omega⟩
  have hkv : kk.val = (c.val % 8) * 4096 + n.val := rfl
  have hgv : (grpOf c).val = c.val / 8 := rfl
  -- the two final reshapes compose to one row-major identity
  have h1 : refNorm (F := Ideal) X (ix3 b c n)
      = normGrouped (F := Ideal) (grouped (F := Ideal) X) (ix3 b (grpOf c) kk) := by
    unfold refNorm
    rw [shapeCast_apply _ _ (ix3 b c n) (ix4 b c (⟨n.val / 64, by omega⟩ : Fin 64) (⟨n.val % 64, by omega⟩ : Fin 64)) (by
      rw [Shape.rowMajor_val_four, Shape.rowMajor_val_three]
      show ((b.val * 256 + c.val) * 64 + n.val / 64) * 64 + n.val % 64 = (b.val * 256 + c.val) * 4096 + n.val
      omega)]
    refine shapeCast_apply _ _ _ _ ?_
    rw [Shape.rowMajor_val_four, Shape.rowMajor_val_three]
    show (b.val * 32 + (grpOf c).val) * 32768 + kk.val = ((b.val * 256 + c.val) * 64 + n.val / 64) * 64 + n.val % 64
    omega
  -- the group's entries, all finite
  let a : Fin 32768 → EReal := fun k => xOf X b (gch (grpOf c) k) (gpos k)
  have ha : ∀ k, ∃ r : ℝ, a k = (r : EReal) := fun k => hX _
  have hG : ∀ k, grouped (F := Ideal) X (ix3 b (grpOf c) k) = a k := fun k => grouped_apply X b (grpOf c) k
  have hkk : a kk = xOf X b c n := by
    have e1 : gch (grpOf c) kk = c := Fin.ext (by
      show 8 * (grpOf c).val + kk.val / 4096 = c.val
      omega)
    have e2 : gpos kk = n := Fin.ext (by
      show kk.val % 4096 = n.val
      omega)
    show xOf X b (gch (grpOf c) kk) (gpos kk) = xOf X b c n
    rw [e1, e2]
  have hmean : groupMean (F := Ideal) (grouped (F := Ideal) X) (ix3 b (grpOf c) (0 : Fin 1)) = mean (xOf X b) (grpOf c) := by
    rw [groupMean_eq]
    simp only [hG]
    unfold mean gsum
    exact mean_host a ha _ _ Ideal.ofBits_zero_f32 count_eq
  have hvar : groupVar (F := Ideal) (grouped (F := Ideal) X) (ix3 b (grpOf c) (0 : Fin 1)) = var (xOf X b) (grpOf c) := by
    rw [groupVar_eq]
    simp only [sqDev_apply, hmean, hG]
    unfold var gsumsq mean gsum
    exact var_host a ha _ _ Ideal.ofBits_zero_f32 varCount_eq
  rw [h1, normGrouped_apply, hmean, hvar, hG, hkk]
  rfl

end Cert.ReferenceIdeal.RNorm

end
-- ==== Proof.RefOut.lean ====
/-
  The reference's tail — the two contractions, the residual sum and the shift — read at one entry of the result, over
  ANY normalized activations `N`: `(N + ∑ r, u · ∑ c', v · N) + s`, with `u`, `v`, `s` the stretches of the parameter row.
-/
import proofs.«115724_j807453851999_1_alg».proof.Proof.RefRun
import proofs.«115724_j807453851999_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.ROut

open Idealize.ShloMosaic Idealize.ShloMosaic.ValueIdx Cert.ReferenceIdeal Cert.ReferenceIdeal.Gen Cert.ReferenceIdeal.RValue
open Cert.GroupNormMix

/-- The first stretch of the parameter row, 12 per channel: entry (b, c, r) is the row's column 12c + r. -/
private theorem refU_apply (P : FVec Ideal S16x6400 .f32) (b : Fin 16) (c : Fin 256) (r : Fin 12) :
    refU (F := Ideal) P (ix3 b c r) = uOf P b c r := by
  unfold refU uOf
  have hc := c.isLt; have hr := r.isLt
  refine (shapeCast_apply _ shapeCasts_S16x3072_S16x256x12 (ix3 b c r)
    (ix2 b (⟨12 * c.val + r.val, by omega⟩ : Fin 3072)) ?_).trans ?_
  · rw [Shape.rowMajor_val_three, Shape.rowMajor_val_two]
    show b.val * 3072 + (12 * c.val + r.val) = (b.val * 256 + c.val) * 12 + r.val
    omega
  · refine extractStridedSlice_apply _ P slices_S16x6400_S16x3072_0_0 _ _ fun a => ?_
    match a with
    | ⟨0, _⟩ => show b.val = 0 + b.val; omega
    | ⟨1, _⟩ => show 12 * c.val + r.val = 0 + (12 * c.val + r.val); omega

/-- The second stretch, 12 per channel: entry (b, c, r) is the row's column 3072 + (12c + r). -/
private theorem refV_apply (P : FVec Ideal S16x6400 .f32) (b : Fin 16) (c : Fin 256) (r : Fin 12) :
    refV (F := Ideal) P (ix3 b c r) = vOf P b c r := by
  unfold refV vOf
  have hc := c.isLt; have hr := r.isLt
  refine (shapeCast_apply _ shapeCasts_S16x3072_S16x256x12 (ix3 b c r)
    (ix2 b (⟨12 * c.val + r.val, by omega⟩ : Fin 3072)) ?_).trans ?_
  · rw [Shape.rowMajor_val_three, Shape.rowMajor_val_two]
    show b.val * 3072 + (12 * c.val + r.val) = (b.val * 256 + c.val) * 12 + r.val
    omega
  · refine extractStridedSlice_apply _ P slices_S16x6400_S16x3072_0_3072 _ _ fun a => ?_
    match a with
    | ⟨0, _⟩ => show b.val = 0 + b.val; omega
    | ⟨1, _⟩ => show 3072 + (12 * c.val + r.val) = 3072 + (12 * c.val + r.val); rfl

/-- The last stretch, one per channel: entry (b, c, 0, 0) is the row's column 6144 + c. -/
private theorem refShift_apply (P : FVec Ideal S16x6400 .f32) (b : Fin 16) (c : Fin 256) :
    refShift (F := Ideal) P (ix4 b c (0 : Fin 1) (0 : Fin 1)) = sOf P b c := by
  unfold refShift sOf
  refine (shapeCast_apply _ shapeCasts_S16x256_S16x256x1x1 (ix4 b c (0 : Fin 1) (0 : Fin 1)) (ix2 b c) ?_).trans ?_
  · rw [Shape.rowMajor_val_four, Shape.rowMajor_val_two]
    show b.val * 256 + c.val = ((b.val * 256 + c.val) * 1 + 0) * 1 + 0
    omega
  · refine extractStridedSlice_apply _ P slices_S16x6400_S16x256_0_6144 _ _ fun a => ?_
    match a with
    | ⟨0, _⟩ => show b.val = 0 + b.val; omega
    | ⟨1, _⟩ => show 6144 + c.val = 6144 + c.val; rfl

/-- The first contraction, batch entry by batch entry, over the channels: entry (b, r, n) is ∑ c', V (b, c', r) · N (b, c', n). -/
private theorem dotV_apply (V : FVec Ideal S16x256x12 .f32) (N : FVec Ideal S16x256x4096 .f32)
    (b : Fin 16) (r : Fin 12) (n : Fin 4096) :
    Host.dotGeneral (F := Ideal) dot_S16x256x12_S16x256x4096_S16x12x4096_1_1_2_2_0_0 none V N (ix3 b r n)
      = ∑ c' : Fin 256, V (ix3 b c' r) * N (ix3 b c' n) := by
  show FloatOps.dotGeneral _ none _ V N (ix3 b r n) = _
  rw [Ideal.dotGeneral_apply, ← Equiv.sum_comp (contrEquiv1 dot_S16x256x12_S16x256x4096_S16x12x4096_1_1_2_2_0_0 256 rfl rfl).symm]
  refine Finset.sum_congr rfl fun c' _ => ?_
  have c3 := contrEquiv1_symm_val dot_S16x256x12_S16x256x4096_S16x12x4096_1_1_2_2_0_0 256 rfl rfl c'
  have l3 : (dot_S16x256x12_S16x256x4096_S16x12x4096_1_1_2_2_0_0).lhsIdx (ix3 b r n) ((contrEquiv1 _ 256 rfl rfl).symm c') = ix3 b c' r := by
    funext ax; apply Fin.ext
    match ax with
    | ⟨0, _⟩ => simp [DotDims.lhsIdx, dot_S16x256x12_S16x256x4096_S16x12x4096_1_1_2_2_0_0]; rfl
    | ⟨1, _⟩ => simp [DotDims.lhsIdx, dot_S16x256x12_S16x256x4096_S16x12x4096_1_1_2_2_0_0]; exact c3
    | ⟨2, _⟩ => simp [DotDims.lhsIdx, dot_S16x256x12_S16x256x4096_S16x12x4096_1_1_2_2_0_0]; rfl
  have r3 : (dot_S16x256x12_S16x256x4096_S16x12x4096_1_1_2_2_0_0).rhsIdx (ix3 b r n) ((contrEquiv1 _ 256 rfl rfl).symm c') = ix3 b c' n := by
    funext ax; apply Fin.ext
    match ax with
    | ⟨0, _⟩ => simp [DotDims.rhsIdx, dot_S16x256x12_S16x256x4096_S16x12x4096_1_1_2_2_0_0]; rfl
    | ⟨1, _⟩ => simp [DotDims.rhsIdx, dot_S16x256x12_S16x256x4096_S16x12x4096_1_1_2_2_0_0]; exact c3
    | ⟨2, _⟩ => simp [DotDims.rhsIdx, dot_S16x256x12_S16x256x4096_S16x12x4096_1_1_2_2_0_0]; rfl
  rw [l3, r3]

/-- The second contraction, batch entry by batch entry, over the 12 directions: entry (b, c, n) is ∑ r, U (b, c, r) · W (b, r, n). -/
private theorem dotU_apply (Uu : FVec Ideal S16x256x12 .f32) (W : FVec Ideal S16x12x4096 .f32)
    (b : Fin 16) (c : Fin 256) (n : Fin 4096) :
    Host.dotGeneral (F := Ideal) dot_S16x256x12_S16x12x4096_S16x256x4096_2_1_1_2_0_0 none Uu W (ix3 b c n)
      = ∑ r : Fin 12, Uu (ix3 b c r) * W (ix3 b r n) := by
  show FloatOps.dotGeneral _ none _ Uu W (ix3 b c n) = _
  rw [Ideal.dotGeneral_apply, ← Equiv.sum_comp (contrEquiv1 dot_S16x256x12_S16x12x4096_S16x256x4096_2_1_1_2_0_0 12 rfl rfl).symm]
  refine Finset.sum_congr rfl fun r _ => ?_
  have c3 := contrEquiv1_symm_val dot_S16x256x12_S16x12x4096_S16x256x4096_2_1_1_2_0_0 12 rfl rfl r
  have l3 : (dot_S16x256x12_S16x12x4096_S16x256x4096_2_1_1_2_0_0).lhsIdx (ix3 b c n) ((contrEquiv1 _ 12 rfl rfl).symm r) = ix3 b c r := by
    funext ax; apply Fin.ext
    match ax with
    | ⟨0, _⟩ => simp [DotDims.lhsIdx, dot_S16x256x12_S16x12x4096_S16x256x4096_2_1_1_2_0_0]; rfl
    | ⟨1, _⟩ => simp [DotDims.lhsIdx, dot_S16x256x12_S16x12x4096_S16x256x4096_2_1_1_2_0_0]; rfl
    | ⟨2, _⟩ => simp [DotDims.lhsIdx, dot_S16x256x12_S16x12x4096_S16x256x4096_2_1_1_2_0_0]; exact c3
  have r3 : (dot_S16x256x12_S16x12x4096_S16x256x4096_2_1_1_2_0_0).rhsIdx (ix3 b c n) ((contrEquiv1 _ 12 rfl rfl).symm r) = ix3 b r n := by
    funext ax; apply Fin.ext
    match ax with
    | ⟨0, _⟩ => simp [DotDims.rhsIdx, dot_S16x256x12_S16x12x4096_S16x256x4096_2_1_1_2_0_0]; rfl
    | ⟨1, _⟩ => simp [DotDims.rhsIdx, dot_S16x256x12_S16x12x4096_S16x256x4096_2_1_1_2_0_0]; exact c3
    | ⟨2, _⟩ => simp [DotDims.rhsIdx, dot_S16x256x12_S16x12x4096_S16x256x4096_2_1_1_2_0_0]; rfl
  rw [l3, r3]

/-- The reference's result at batch entry `b`, channel `c`, position `(h, w)`, from normalized activations `N`. -/
theorem refOut_apply (N : FVec Ideal S16x256x4096 .f32) (P : FVec Ideal S16x6400 .f32) (b : Fin 16) (c : Fin 256) (h w : Fin 64) :
    refOut (F := Ideal) N P (ix4 b c h w)
      = (N (ix3 b c (⟨64 * h.val + w.val, by have := h.isLt; have := w.isLt; omega⟩ : Fin 4096))
          + ∑ r : Fin 12, uOf P b c r * ∑ c' : Fin 256, vOf P b c' r
              * N (ix3 b c' (⟨64 * h.val + w.val, by have := h.isLt; have := w.isLt; omega⟩ : Fin 4096)))
        + sOf P b c := by
  have hh := h.isLt; have hw := w.isLt
  unfold refOut
  rw [addf_apply]
  congr 1
  · -- position (h, w) of the 64 × 64 grid is position 64h + w of the flattened 4096
    refine (shapeCast_apply _ shapeCasts_S16x256x4096_S16x256x64x64 (ix4 b c h w)
      (ix3 b c (⟨64 * h.val + w.val, by omega⟩ : Fin 4096)) ?_).trans ?_
    · rw [Shape.rowMajor_val_three, Shape.rowMajor_val_four]
      show (b.val * 256 + c.val) * 4096 + (64 * h.val + w.val) = ((b.val * 256 + c.val) * 64 + h.val) * 64 + w.val
      omega
    · rw [addf_apply, dotU_apply]
      congr 1
      refine Finset.sum_congr rfl fun r _ => ?_
      rw [refU_apply, dotV_apply]
      congr 1
      refine Finset.sum_congr rfl fun c' _ => ?_
      rw [refV_apply]
  · -- the shift is constant over the positions
    refine (broadcastInDim_apply _ bcast_S16x256x1x1_S16x256x64x64_0_1_2_3 (refShift (F := Ideal) P) (ix4 b c h w)
      (ix4 b c (0 : Fin 1) (0 : Fin 1)) fun a => ?_).trans (refShift_apply P b c)
    match a with
    | ⟨0, _⟩ => rfl
    | ⟨1, _⟩ => rfl
    | ⟨2, _⟩ => rfl
    | ⟨3, _⟩ => rfl

end Cert.ReferenceIdeal.ROut

end
-- ==== Proof.RefValue.lean ====
/-
  The reference's result term is `GroupNormMix.result` of the arguments, where the activations are finite.
-/
import proofs.«115724_j807453851999_1_alg».proof.Proof.RefNorm
import proofs.«115724_j807453851999_1_alg».proof.Proof.RefOut

noncomputable section

open scoped BigOperators

namespace Cert.ReferenceIdeal.RValue

open Idealize.ShloMosaic Idealize.ShloMosaic.ValueIdx Cert.ReferenceIdeal Cert.ReferenceIdeal.Gen
open Cert.GroupNormMix

/-- Entry by entry the reference computes `result`: its normalized activations are `xn`, and its tail is the slab's
    contraction, residual and shift. -/
theorem refTerm_eq (X : FVec Ideal S16x256x64x64 .f32) (P : FVec Ideal S16x6400 .f32)
    (hX : ∀ i, ∃ r : ℝ, X i = (r : EReal)) : refTerm (F := Ideal) X P = result X P := by
  funext i
  obtain ⟨b, c, h, w, rfl⟩ : ∃ (b : Fin 16) (c : Fin 256) (h w : Fin 64), i = ix4 b c h w := ⟨i 0, i 1, i 2, i 3, eq_ix4 i⟩
  rw [result_ix4]
  unfold refTerm
  rw [Cert.ReferenceIdeal.ROut.refOut_apply]
  simp only [Cert.ReferenceIdeal.RNorm.refNorm_apply X hX]
  rfl

end Cert.ReferenceIdeal.RValue

end
-- ==== Proof.Finite.lean ====
/-
  The precondition read: every activation is a real number.
-/
import proofs.«115724_j807453851999_1_alg».proof.Pre_finite_inputs
import proofs.«115724_j807453851999_1_alg».proof.Proof.Gen.Pre_finite_inputs
import Idealize.ShloMosaic.PureOps.Ideal
import Idealize.ShloMosaic.Lib.ValueIdx
import Idealize.ShloMosaic.Lib.ReduceAll

noncomputable section

namespace Cert.GroupNormMix

open Idealize.ShloMosaic Idealize.ShloMosaic.ValueIdx

/-- The rank-zero shape has a single index. -/
private instance : Subsingleton Cert.Pre_finite_inputs.S_.Idx := ⟨fun a b => funext fun d => d.elim0⟩

/-- The word `0x7F800000` denotes `+∞`. -/
private theorem inf_eq : Ideal.ofBits .f32 0x7F800000#32 = (⊤ : EReal) := by
  simp [Ideal.ofBits, Ideal.ieee]

/-- An extended real whose absolute value `max a (-a)` lies strictly below `+∞` is a real: at `⊤` and at `⊥` the
    absolute value is `⊤` itself. -/
private theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- Under the precondition (both arguments' entries below `+∞` in absolute value) every activation is finite. -/
theorem finite_x (X : FVec Ideal Cert.Pre_finite_inputs.S16x256x64x64 .f32) (P : FVec Ideal Cert.Pre_finite_inputs.S16x6400 .f32)
    (h : Cert.Pre_finite_inputs.fn (F := Ideal) X P = fun _ => 1#1) : ∀ i, ∃ r : ℝ, X i = (r : EReal) := by
  intro i
  -- the predicate's one result is the conjunction of the two arguments' "all entries below +∞"
  have h0 := congrFun h ValueIdx.ix0
  dsimp only [Cert.Pre_finite_inputs.fn] at h0
  obtain ⟨h1, _⟩ := IntOp.andi_eq_one.1 h0
  -- a conjunction over all entries that came out 1 met a 1 at entry `i`
  have h2 := Host.reduce_andi_all _ _ _ _ _ h1 i
  -- at entry `i` the comparison reads |X i| < +∞
  have h3 : Ideal.cmp .olt (max (X i) (-(X i))) (Ideal.ofBits .f32 0x7F800000#32) = 1#1 := h2
  rw [inf_eq] at h3
  exact real_of_abs_lt_top _ h3

end Cert.GroupNormMix

end
-- ==== Proof.lean ====
/-
  GroupNorm (32 groups of 8 channels, no affine part) followed by a rank-12 channel mix `x̂ + u (vᵀ x̂)` and a per-channel
  shift, over f32[16, 256, 64, 64] activations and a f32[16, 6400] parameter array: a Pallas kernel that handles one
  batch entry per grid point, against the jnp reference that treats the whole batch at once.

  At the ideal instance both programs compute `GroupNormMix.result` (Proof/Spec.lean) of their two arguments:
  * the kernel takes each group's variance as the mean of the squares less the squared mean, scaling the sums by the
    exact power of two `2⁻¹⁵`; its two bf16 matrix products are exact sums at the ideal instance
    (Proof/KernelBody.lean), each grid point writes its batch entry's slab, the slabs tile the output
    (Proof/KernelValue.lean), and the arrays around the region are re-laid pieces of the arguments
    (Proof/KernelArrays.lean);
  * the reference takes the variance as the mean squared deviation and divides by 32768 (Proof/RefRun.lean its run,
    Proof/RefNorm.lean and Proof/RefOut.lean its term read at an index); the two variances are one number exactly
    where the activations are finite (Proof/Stats.lean), which the precondition provides (Proof/Finite.lean).
  The three frames are the generated frame runs and the reference's run; the ideal pass rewrote nothing, so
  `preserves` is `True`.
-/
import proofs.«115724_j807453851999_1_alg».proof.Defs
import proofs.«115724_j807453851999_1_alg».proof.Proof.Gen.Kernel
import proofs.«115724_j807453851999_1_alg».proof.Proof.Gen.Kernel.Skeleton
import proofs.«115724_j807453851999_1_alg».proof.Proof.Gen.Kernel.Launch
import proofs.«115724_j807453851999_1_alg».proof.Proof.Gen.Kernel.Points
import proofs.«115724_j807453851999_1_alg».proof.Proof.Gen.Kernel.Frame
import proofs.«115724_j807453851999_1_alg».proof.Proof.Gen.KernelIdeal
import proofs.«115724_j807453851999_1_alg».proof.Proof.Gen.KernelIdeal.Skeleton
import proofs.«115724_j807453851999_1_alg».proof.Proof.Gen.KernelIdeal.Launch
import proofs.«115724_j807453851999_1_alg».proof.Proof.Gen.KernelIdeal.Points
import proofs.«115724_j807453851999_1_alg».proof.Proof.Gen.KernelIdeal.Frame
import proofs.«115724_j807453851999_1_alg».proof.Proof.Gen.ReferenceIdeal
import proofs.«115724_j807453851999_1_alg».proof.Proof.Gen.Pre_finite_inputs
import proofs.«115724_j807453851999_1_alg».proof.Proof.KernelValue
import proofs.«115724_j807453851999_1_alg».proof.Proof.RefRun
import proofs.«115724_j807453851999_1_alg».proof.Proof.RefValue
import proofs.«115724_j807453851999_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RValue.run (F := Ideal) m ρ)

/-- Both idealized programs end at `GroupNormMix.result` of the (agreeing) arguments: the kernel always, the reference
    because the precondition makes the activations finite. -/
theorem algebraic : Cert.algebraic_KernelIdeal_ReferenceIdeal := by
  intro m ρ m' ρ' hpre hagree
  refine ⟨fun c => Cert.GroupNormMix.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RValue.run (F := Ideal) m' ρ')
  rw [(hagree c).1, (hagree c).2]
  exact Cert.ReferenceIdeal.RValue.refTerm_eq _ _ (Cert.GroupNormMix.finite_x _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
